-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x4096 : S_.BroadcastsInDim S16x4096 (![] : Fin 0 → Fin S16x4096.rank)
  reducesTo_S16x4096_S_d0_1 : S16x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S16x1024 .f32) (main_arg6 : FVec F S1024 .f32) (main_arg7 : FVec F S16x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S16x1024 .f32 := Host.absf main_arg7
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  main_v33

def fn {F : FTy → Type} [FloatOps F] (main_arg0 : IVec S64 32) (main_arg1 : FVec F S512x64x1024 .f32) (main_arg2 : FVec F S4096x1024 .f32) (main_arg3 : FVec F S16x4096 .f32) (main_arg4 : FVec F S1024x4096 .f32) (main_arg5 : FVec F S16x1024 .f32) (main_arg6 : FVec F S1024 .f32) (main_arg7 : FVec F S16x1024 .f32) : IVec S_ 1 :=
  let main_v0 : FVec F S512x64x1024 .f32 := Host.absf main_arg1
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_arg7 main_v13 main_v16
-- ==== Kernel.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩
abbrev S64x1 : Shape := ⟨2, ![64, 1]⟩
abbrev S64x4096 : Shape := ⟨2, ![64, 4096]⟩
abbrev S64x1024 : Shape := ⟨2, ![64, 1024]⟩
abbrev S16x64x1024 : Shape := ⟨3, ![16, 64, 1024]⟩
abbrev S1024x1024 : Shape := ⟨2, ![1024, 1024]⟩
abbrev S1x64x1024 : Shape := ⟨3, ![1, 64, 1024]⟩
abbrev S1x1024 : Shape := ⟨2, ![1, 1024]⟩

abbrev nBuf : Space → Nat
  | .hbm => 40
  | .vmem => 14
  | .smem => 0
  | _ => 0

abbrev bufTy : (tb : Table) → Fin (tcTables nBuf tb) → BufTy
  | .hbm, ⟨0, _⟩ => ⟨S64, .i32⟩
  | .hbm, ⟨1, _⟩ => ⟨S512x64x1024, .f32⟩
  | .hbm, ⟨2, _⟩ => ⟨S4096x1024, .f32⟩
  | .hbm, ⟨3, _⟩ => ⟨S16x4096, .f32⟩
  | .hbm, ⟨4, _⟩ => ⟨S1024x4096, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x4096, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1024, .f32⟩
  | .hbm, ⟨35, _⟩ => ⟨S1024x4096, .f32⟩
  | .hbm, ⟨36, _⟩ => ⟨S1024x4096, .bf16⟩
  | .hbm, ⟨37, _⟩ => ⟨S4096x1024, .f32⟩
  | .hbm, ⟨38, _⟩ => ⟨S4096x1024, .bf16⟩
  | .hbm, ⟨39, _⟩ => ⟨S512x64x1024, .f32⟩
  | .local _ .vmem, ⟨0, _⟩ => ⟨S16x64x1024, .f32⟩
  | .local _ .vmem, ⟨1, _⟩ => ⟨S16x64x1024, .f32⟩
  | .local _ .vmem, ⟨2, _⟩ => ⟨S1024x1024, .bf16⟩
  | .local _ .vmem, ⟨3, _⟩ => ⟨S1024x1024, .bf16⟩
  | .local _ .vmem, ⟨4, _⟩ => ⟨S64x1024, .f32⟩
  | .local _ .vmem, ⟨5, _⟩ => ⟨S64x1024, .f32⟩
  | .local _ .vmem, ⟨6, _⟩ => ⟨S1024x1024, .bf16⟩
  | .local _ .vmem, ⟨7, _⟩ => ⟨S1024x1024, .bf16⟩
  | .local _ .vmem, ⟨8, _⟩ => ⟨S64x1024, .f32⟩
  | .local _ .vmem, ⟨9, _⟩ => ⟨S1024, .f32⟩
  | .local _ .vmem, ⟨10, _⟩ => ⟨S64x1024, .f32⟩
  | .local _ .vmem, ⟨11, _⟩ => ⟨S16x64x1024, .f32⟩
  | .local _ .vmem, ⟨12, _⟩ => ⟨S16x64x1024, .f32⟩
  | .local _ .vmem, ⟨13, _⟩ => ⟨S16x64x1024, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v249 : BitVec 1 := Scalar.cmpi .eq arg1 c3_i32
  let v250 : BitVec 32 := Scalar.extui v249
  let c0_i32_182 : BitVec 32 := 0#32
  let v251 : BitVec 1 := Scalar.cmpi .ne v250 c0_i32_182
  v251

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S64 : S_.BroadcastsInDim S64 (![] : Fin 0 → Fin S64.rank)
  bcast_S64_S64x1_0 : S64.BroadcastsInDim S64x1 (![0] : Fin 1 → Fin S64x1.rank)
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S16x64x1024_S1x64x1024_0_0_0 : ∀ a, (![0, 0, 0] : Fin 3 → Nat) a + S1x64x1024.size a ≤ S16x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S16x64x1024_S1x64x1024_1_0_0 : ∀ a, (![1, 0, 0] : Fin 3 → Nat) a + S1x64x1024.size a ≤ S16x64x1024.size a
  inb_S16x64x1024_S1x64x1024_2_0_0 : ∀ a, (![2, 0, 0] : Fin 3 → Nat) a + S1x64x1024.size a ≤ S16x64x1024.size a
  inb_S16x64x1024_S1x64x1024_3_0_0 : ∀ a, (![3, 0, 0] : Fin 3 → Nat) a + S1x64x1024.size a ≤ S16x64x1024.size a
  inb_S16x64x1024_S1x64x1024_4_0_0 : ∀ a, (![4, 0, 0] : Fin 3 → Nat) a + S1x64x1024.size a ≤ S16x64x1024.size a
  inb_S16x64x1024_S1x64x1024_5_0_0 : ∀ a, (![5, 0, 0] : Fin 3 → Nat) a + S1x64x1024.size a ≤ S16x64x1024.size a
  inb_S16x64x1024_S1x64x1024_6_0_0 : ∀ a, (![6, 0, 0] : Fin 3 → Nat) a + S1x64x1024.size a ≤ S16x64x1024.size a
  inb_S16x64x1024_S1x64x1024_7_0_0 : ∀ a, (![7, 0, 0] : Fin 3 → Nat) a + S1x64x1024.size a ≤ S16x64x1024.size a
  inb_S16x64x1024_S1x64x1024_8_0_0 : ∀ a, (![8, 0, 0] : Fin 3 → Nat) a + S1x64x1024.size a ≤ S16x64x1024.size a
  inb_S16x64x1024_S1x64x1024_9_0_0 : ∀ a, (![9, 0, 0] : Fin 3 → Nat) a + S1x64x1024.size a ≤ S16x64x1024.size a
  inb_S16x64x1024_S1x64x1024_10_0_0 : ∀ a, (![10, 0, 0] : Fin 3 → Nat) a + S1x64x1024.size a ≤ S16x64x1024.size a
  inb_S16x64x1024_S1x64x1024_11_0_0 : ∀ a, (![11, 0, 0] : Fin 3 → Nat) a + S1x64x1024.size a ≤ S16x64x1024.size a
  inb_S16x64x1024_S1x64x1024_12_0_0 : ∀ a, (![12, 0, 0] : Fin 3 → Nat) a + S1x64x1024.size a ≤ S16x64x1024.size a
  inb_S16x64x1024_S1x64x1024_13_0_0 : ∀ a, (![13, 0, 0] : Fin 3 → Nat) a + S1x64x1024.size a ≤ S16x64x1024.size a
  inb_S16x64x1024_S1x64x1024_14_0_0 : ∀ a, (![14, 0, 0] : Fin 3 → Nat) a + S1x64x1024.size a ≤ S16x64x1024.size a
  inb_S16x64x1024_S1x64x1024_15_0_0 : ∀ a, (![15, 0, 0] : Fin 3 → Nat) a + S1x64x1024.size a ≤ S16x64x1024.size a
  inb_S1024_S1024_0 : ∀ a, (![0] : Fin 1 → Nat) a + S1024.size a ≤ S1024.size a
  h_S1024 : 0 < S1024.numel
  reduces_S64x1024_S64 : S64x1024.Reduces [1] S64
  shapeCasts_S64_S64x1 : S64.ShapeCasts S64x1
  broadcasts_S64x1_S64x1024 : S64x1.Broadcasts S64x1024
  shapeCasts_S1024_S1x1024 : S1024.ShapeCasts S1x1024
  broadcasts_S1x1024_S64x1024 : S1x1024.Broadcasts S64x1024
  gather_S16x4096_S64x1_S64x4096_1_0_n_n_0_1_14096_wf : GatherDims.WF S16x4096 S64x1 S64x4096 [1] [0] [] [0] [] 1 ![1, 4096]
  gather_S16x1024_S64x1_S64x1024_1_0_n_n_0_1_11024_wf : GatherDims.WF S16x1024 S64x1 S64x1024 [1] [0] [] [0] [] 1 ![1, 1024]
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S512x64x1024.size a
  hwx0_0 : ∀ i : grid0.Coords, EltTy.bits .f32 = 32 ∨ (Rect.block (s := S512x64x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .f32 = 32 ∨ (Rect.block (s := S64x4096) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x64x1024.size a ≤ S512x64x1024.size a
  hwx0_7 : ∀ i : grid0.Coords, EltTy.bits .f32 = 32 ∨ (Rect.block (s := S512x64x1024) S16x64x1024.size (cc0_transform_7 i) (hinb0_7 i)).WholeWords (EltTy.packing .f32)

variable [Facts₀]

def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def gather_S16x1024_S64x1_S64x1024_1_0_n_n_0_1_11024 : GatherDims S16x1024 S64x1 S64x1024 where
  offsetDims := [1]
  collapsedSliceDims := [0]
  operandBatchingDims := []
  startIndicesBatchingDims := []
  startIndexMap := [0]
  indexVectorDim := 1
  sliceSizes := ![1, 1024]
  wf := gather_S16x1024_S64x1_S64x1024_1_0_n_n_0_1_11024_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg1) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩
abbrev S64x1 : Shape := ⟨2, ![64, 1]⟩
abbrev S64x4096 : Shape := ⟨2, ![64, 4096]⟩
abbrev S64x1024 : Shape := ⟨2, ![64, 1024]⟩
abbrev S512x64x4096 : Shape := ⟨3, ![512, 64, 4096]⟩
abbrev S1x64x4096 : Shape := ⟨3, ![1, 64, 4096]⟩
abbrev S1x64x1024 : Shape := ⟨3, ![1, 64, 1024]⟩
abbrev S512x64 : Shape := ⟨2, ![512, 64]⟩
abbrev S512x64x1 : Shape := ⟨3, ![512, 64, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S64, .i32⟩
  | .hbm, ⟨1, _⟩ => ⟨S512x64x1024, .f32⟩
  | .hbm, ⟨2, _⟩ => ⟨S4096x1024, .f32⟩
  | .hbm, ⟨3, _⟩ => ⟨S16x4096, .f32⟩
  | .hbm, ⟨4, _⟩ => ⟨S1024x4096, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x4096, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1024, .f32⟩
  | .hbm, ⟨35, _⟩ => ⟨S512x64x4096, .f32⟩
  | .hbm, ⟨36, _⟩ => ⟨S1x64x4096, .f32⟩
  | .hbm, ⟨37, _⟩ => ⟨S512x64x4096, .f32⟩
  | .hbm, ⟨38, _⟩ => ⟨S512x64x4096, .f32⟩
  | .hbm, ⟨39, _⟩ => ⟨S_, .f32⟩
  | .hbm, ⟨40, _⟩ => ⟨S512x64x4096, .f32⟩
  | .hbm, ⟨41, _⟩ => ⟨S512x64x4096, .f32⟩
  | .hbm, ⟨42, _⟩ => ⟨S512x64x1024, .f32⟩
  | .hbm, ⟨43, _⟩ => ⟨S512x64x1024, .f32⟩
  | .hbm, ⟨44, _⟩ => ⟨S1x64x1024, .f32⟩
  | .hbm, ⟨45, _⟩ => ⟨S512x64x1024, .f32⟩
  | .hbm, ⟨46, _⟩ => ⟨S512x64x1024, .f32⟩
  | .hbm, ⟨47, _⟩ => ⟨S_, .f32⟩
  | .hbm, ⟨48, _⟩ => ⟨S512x64, .f32⟩
  | .hbm, ⟨49, _⟩ => ⟨S512x64x1, .f32⟩
  | .hbm, ⟨50, _⟩ => ⟨S_, .f32⟩
  | .hbm, ⟨51, _⟩ => ⟨S512x64x1, .f32⟩
  | .hbm, ⟨52, _⟩ => ⟨S512x64x1, .f32⟩
  | .hbm, ⟨53, _⟩ => ⟨S512x64x1024, .f32⟩
  | .hbm, ⟨54, _⟩ => ⟨S512x64x1024, .f32⟩
  | .hbm, ⟨55, _⟩ => ⟨S512x64x1024, .f32⟩
  | .hbm, ⟨56, _⟩ => ⟨S_, .f32⟩
  | .hbm, ⟨57, _⟩ => ⟨S512x64, .f32⟩
  | .hbm, ⟨58, _⟩ => ⟨S512x64x1, .f32⟩
  | .hbm, ⟨59, _⟩ => ⟨S_, .f32⟩
  | .hbm, ⟨60, _⟩ => ⟨S512x64x1, .f32⟩
  | .hbm, ⟨61, _⟩ => ⟨S512x64x1, .f32⟩
  | .hbm, ⟨62, _⟩ => ⟨S512x64x1024, .f32⟩
  | .hbm, ⟨63, _⟩ => ⟨S512x64x1024, .f32⟩
  | .hbm, ⟨64, _⟩ => ⟨S_, .f32⟩
  | .hbm, ⟨65, _⟩ => ⟨S512x64x1, .f32⟩
  | .hbm, ⟨66, _⟩ => ⟨S512x64x1, .f32⟩
  | .hbm, ⟨67, _⟩ => ⟨S512x64x1, .f32⟩
  | .hbm, ⟨68, _⟩ => ⟨S512x64x1024, .f32⟩
  | .hbm, ⟨69, _⟩ => ⟨S512x64x1024, .f32⟩
  | .hbm, ⟨70, _⟩ => ⟨S1x1x1024, .f32⟩
  | .hbm, ⟨71, _⟩ => ⟨S512x64x1024, .f32⟩
  | .hbm, ⟨72, _⟩ => ⟨S512x64x1024, .f32⟩
  | .hbm, ⟨73, _⟩ => ⟨S1x64x1024, .f32⟩
  | .hbm, ⟨74, _⟩ => ⟨S512x64x1024, .f32⟩
  | .hbm, ⟨75, _⟩ => ⟨S512x64x1024, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S1x64x4096_1_2 : S64x4096.BroadcastsInDim S1x64x4096 (![1, 2] : Fin 2 → Fin S1x64x4096.rank)
  bcast_S1x64x4096_S512x64x4096_0_1_2 : S1x64x4096.BroadcastsInDim S512x64x4096 (![0, 1, 2] : Fin 3 → Fin S512x64x4096.rank)
  bcast_S_S512x64x4096 : S_.BroadcastsInDim S512x64x4096 (![] : Fin 0 → Fin S512x64x4096.rank)
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  reducesTo_S512x64x1024_S512x64_d2 : S512x64x1024.ReducesTo [2] S512x64
  h_S_ : 0 < S_.numel
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S512x64x1_S512x64x1024_0_1_2 : S512x64x1.BroadcastsInDim S512x64x1024 (![0, 1, 2] : Fin 3 → Fin S512x64x1024.rank)
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  gather_S16x4096_S64x1_S64x4096_1_0_n_n_0_1_14096_wf : GatherDims.WF S16x4096 S64x1 S64x4096 [1] [0] [] [0] [] 1 ![1, 4096]
  gather_S16x1024_S64x1_S64x1024_1_0_n_n_0_1_11024_wf : GatherDims.WF S16x1024 S64x1 S64x1024 [1] [0] [] [0] [] 1 ![1, 1024]
  dot_S512x64x1024_S4096x1024_S512x64x4096_2_1_01_0_n_n_wf : DotDims.WF S512x64x1024 S4096x1024 S512x64x4096 [2] [1] [0, 1] [0] [] []
  dot_S512x64x4096_S1024x4096_S512x64x1024_2_1_01_0_n_n_wf : DotDims.WF S512x64x4096 S1024x4096 S512x64x1024 [2] [1] [0, 1] [0] [] []

variable [Facts₀]

def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def gather_S16x1024_S64x1_S64x1024_1_0_n_n_0_1_11024 : GatherDims S16x1024 S64x1 S64x1024 where
  offsetDims := [1]
  collapsedSliceDims := [0]
  operandBatchingDims := []
  startIndicesBatchingDims := []
  startIndexMap := [0]
  indexVectorDim := 1
  sliceSizes := ![1, 1024]
  wf := gather_S16x1024_S64x1_S64x1024_1_0_n_n_0_1_11024_wf
def dot_S512x64x1024_S4096x1024_S512x64x4096_2_1_01_0_n_n : DotDims S512x64x1024 S4096x1024 S512x64x4096 where
  lhsContracting := [2]
  rhsContracting := [1]
  lhsNonContracting := [0, 1]
  rhsNonContracting := [0]
  lhsBatch := []
  rhsBatch := []
  wf := dot_S512x64x1024_S4096x1024_S512x64x4096_2_1_01_0_n_n_wf
def dot_S512x64x4096_S1024x4096_S512x64x1024_2_1_01_0_n_n : DotDims S512x64x4096 S1024x4096 S512x64x1024 where
  lhsContracting := [2]
  rhsContracting := [1]
  lhsNonContracting := [0, 1]
  rhsNonContracting := [0]
  lhsBatch := []
  rhsBatch := []
  wf := dot_S512x64x4096_S1024x4096_S512x64x1024_2_1_01_0_n_n_wf

class Facts : Prop extends Facts₀ where

variable [Facts]
-- ==== Proof.Spec.lean ====
/-
  The mathematics of the layer, over the extended reals and plain `Fin` indices.

  A row `x : Fin 1024 → EReal` of the input is sent to
      y d   = (x d + ∑ h < 4096, max ((∑ e, x e · W1 h e) + b1 h) 0 · W2 d h) + b2 d
  and then normalised along `d`:
      out d = ((y d − μ) · rsqrt (var + ε)) · w d + lb d,   μ = (∑ y) / 1024,   var = (∑ (y − μ)²) / 1024.

  The kernel computes `y` with the hidden axis cut into four blocks of 1024, accumulated from zero in block order and
  with the residual `x d` added after the accumulator: `yKer`.  The two agree because addition of extended reals is
  commutative and associative and a finite sum splits along any partition of its index set (`yKer_eq_yRef`); no
  finiteness of the entries is used.
-/
import Idealize.ShloMosaic.PureOps.Ideal
import Mathlib.Algebra.BigOperators.Fin
import Mathlib.Logic.Equiv.Fin.Basic

noncomputable section

namespace Cert.Spec

open Idealize.ShloMosaic

/-- Hidden unit `1024 · j + k`: unit `k` of block `j`. -/
def hIdx (j : Fin 4) (k : Fin 1024) : Fin 4096 := ⟨1024 * j.val + k.val, by omega⟩

/-- One hidden unit's activation on a row: `max (⟨x, w1⟩ + b) 0`. -/
def act (x w1 : Fin 1024 → EReal) (b : EReal) : EReal := max ((∑ e : Fin 1024, x e * w1 e) + b) 0

/-- Block `j`'s contribution to output column `d`: the hidden units `1024 j … 1024 j + 1023` against `W2`. -/
def part (x : Fin 1024 → EReal) (W1 : Fin 4096 → Fin 1024 → EReal) (b1 : Fin 4096 → EReal)
    (W2 : Fin 1024 → Fin 4096 → EReal) (j : Fin 4) (d : Fin 1024) : EReal :=
  ∑ k : Fin 1024, act x (W1 (hIdx j k)) (b1 (hIdx j k)) * W2 d (hIdx j k)

/-- The pre-normalisation value as the kernel accumulates it: from zero, block by block, then the residual, then the bias. -/
def yKer (x : Fin 1024 → EReal) (W1 : Fin 4096 → Fin 1024 → EReal) (b1 : Fin 4096 → EReal)
    (W2 : Fin 1024 → Fin 4096 → EReal) (b2 : Fin 1024 → EReal) (d : Fin 1024) : EReal :=
  (((((0 + part x W1 b1 W2 0 d) + part x W1 b1 W2 1 d) + part x W1 b1 W2 2 d) + part x W1 b1 W2 3 d) + x d) + b2 d

/-- The accumulator after hidden blocks 0 … j. -/
def accUpTo (x : Fin 1024 → EReal) (W1 : Fin 4096 → Fin 1024 → EReal) (b1 : Fin 4096 → EReal)
    (W2 : Fin 1024 → Fin 4096 → EReal) : ℕ → Fin 1024 → EReal
  | 0, d => 0 + part x W1 b1 W2 0 d
  | 1, d => (0 + part x W1 b1 W2 0 d) + part x W1 b1 W2 1 d
  | 2, d => ((0 + part x W1 b1 W2 0 d) + part x W1 b1 W2 1 d) + part x W1 b1 W2 2 d
  | _, d => (((0 + part x W1 b1 W2 0 d) + part x W1 b1 W2 1 d) + part x W1 b1 W2 2 d) + part x W1 b1 W2 3 d

/-- The kernel's value is the accumulator after the last block, plus the residual, plus the bias. -/
theorem yKer_eq_acc (x : Fin 1024 → EReal) (W1 : Fin 4096 → Fin 1024 → EReal) (b1 : Fin 4096 → EReal)
    (W2 : Fin 1024 → Fin 4096 → EReal) (b2 : Fin 1024 → EReal) (d : Fin 1024) :
    yKer x W1 b1 W2 b2 d = (accUpTo x W1 b1 W2 3 d + x d) + b2 d := rfl

/-- The pre-normalisation value as the reference writes it: residual plus ONE sum over the hidden axis, then the bias. -/
def yRef (x : Fin 1024 → EReal) (W1 : Fin 4096 → Fin 1024 → EReal) (b1 : Fin 4096 → EReal)
    (W2 : Fin 1024 → Fin 4096 → EReal) (b2 : Fin 1024 → EReal) (d : Fin 1024) : EReal :=
  (x d + ∑ h : Fin 4096, act x (W1 h) (b1 h) * W2 d h) + b2 d

/-- A sum over the 4096 hidden units is the sum over the four blocks of the sums inside each block. -/
theorem sum_hidden (f : Fin 4096 → EReal) :
    ∑ h : Fin 4096, f h = ∑ j : Fin 4, ∑ k : Fin 1024, f (hIdx j k) := by
  -- The pairs (block, unit in block) are in bijection with the hidden units, by (j, k) ↦ k + 1024 · j = 1024 · j + k.
  have key : ∑ p : Fin 4 × Fin 1024, f (hIdx p.1 p.2) = ∑ h : Fin 4096, f h := by
    refine Fintype.sum_equiv (finProdFinEquiv : Fin 4 × Fin 1024 ≃ Fin 4096) _ _ ?_
    rintro ⟨j, k⟩
    congr 1
    apply Fin.ext
    show 1024 * j.val + k.val = k.val + 1024 * j.val
    exact Nat.add_comm _ _
  -- A sum over pairs is the iterated sum.
  rw [← key, Fintype.sum_prod_type]

/-- The kernel's blocked accumulation is the reference's single sum. -/
theorem yKer_eq_yRef (x : Fin 1024 → EReal) (W1 : Fin 4096 → Fin 1024 → EReal) (b1 : Fin 4096 → EReal)
    (W2 : Fin 1024 → Fin 4096 → EReal) (b2 : Fin 1024 → EReal) (d : Fin 1024) :
    yKer x W1 b1 W2 b2 d = yRef x W1 b1 W2 b2 d := by
  unfold yKer yRef
  -- Split the single sum into the four blocks, and write the outer sum over four blocks out.
  rw [sum_hidden (fun h => act x (W1 h) (b1 h) * W2 d h), Fin.sum_univ_four]
  -- Zero is neutral, and the residual commutes past the accumulated blocks.
  rw [zero_add, add_comm (x d)]
  rfl

/-- The mean of a row: its sum divided by the literal 1024.0. -/
def muRow (y : Fin 1024 → EReal) : EReal := Ideal.div (∑ d' : Fin 1024, y d') (Ideal.ofBits .f32 0x44800000#32)

/-- Layer normalisation of a row `y` with scale `w` and shift `lb`, at column `d`. -/
def lnRow (y w lb : Fin 1024 → EReal) (d : Fin 1024) : EReal :=
  ((y d - muRow y)
      * Ideal.rsqrt (Ideal.div (∑ d' : Fin 1024, (y d' - muRow y) * (y d' - muRow y)) (Ideal.ofBits .f32 0x44800000#32)
          + Ideal.ofBits .f32 0x3727C5AC#32))
    * w d + lb d

end Cert.Spec

end
-- ==== Proof.PartB.lean ====
/-
  The contribution of one hidden block to one entry of the accumulator.
-/
import proofs.«159844_j11184094839027_1_alg».proof.Proof.Gen.KernelIdeal
import proofs.«159844_j11184094839027_1_alg».proof.Proof.Spec
import Idealize.ShloMosaic.Lib.ValueIdx

noncomputable section

namespace Cert.KernelIdeal.Slabs

open Cert.KernelIdeal Idealize.ShloMosaic Idealize.ShloMosaic.ValueIdx

/-- The contribution of the hidden block held at a grid point to entry `(t, b, d)`: over the block's 1024 units, the
    unit's activation on row `(t, b)` of the `x` block (`x0`; weights `x1`, bias `x2`) times its weight into column
    `d` (`x3`). -/
def partB (x0 : Vec Ideal S16x64x1024 .f32) (x1 : Vec Ideal S1024x1024 .bf16) (x2 : Vec Ideal S64x1024 .f32)
    (x3 : Vec Ideal S1024x1024 .bf16) (t : Fin 16) (b : Fin 64) (d : Fin 1024) : EReal :=
  ∑ k : Fin 1024, Cert.Spec.act (fun e => x0 (ix3 t b e)) (fun e => x1 (ix2 e k)) (x2 (ix2 b k)) * x3 (ix2 k d)

end Cert.KernelIdeal.Slabs

end
-- ==== Proof.Blocks.lean ====
/-
  The blocks a grid point works on, read off the arrays the region finds.

  Point `t` of the 32 × 4 grid is S-tile `t / 4` and hidden block `t % 4`.  Its block of `x` is rows
  `16 (t / 4) … 16 (t / 4) + 15`; its blocks of the transposed weights and of the gathered first bias are the hidden
  units `1024 (t % 4) … 1024 (t % 4) + 1023`; the second bias, the scale and the gathered shift are whole.  The two
  weight arrays the region finds are the arguments transposed (the change of float format is the identity over the
  extended reals).
-/
import proofs.«159844_j11184094839027_1_alg».proof.Proof.Gen.KernelIdeal.Frame
import proofs.«159844_j11184094839027_1_alg».proof.Proof.Spec
import proofs.«159844_j11184094839027_1_alg».proof.Proof.PartB
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Cert.KernelIdeal.Slabs

variable (m : (ℓ : Loc nD τ sig) → Buf (Elt Ideal) ℓ)

/-! ## The blocks and the arrays, at their literal types -/

abbrev xblk (c : Dev nD) (t : Fin cfg0.N) : Vec Ideal S16x64x1024 .f32 := iblk m c 0 t
abbrev w1blk (c : Dev nD) (t : Fin cfg0.N) : Vec Ideal S1024x1024 .bf16 := iblk m c 1 t
abbrev b1blk (c : Dev nD) (t : Fin cfg0.N) : Vec Ideal S64x1024 .f32 := iblk m c 2 t
abbrev w2blk (c : Dev nD) (t : Fin cfg0.N) : Vec Ideal S1024x1024 .bf16 := iblk m c 3 t
abbrev b2blk (c : Dev nD) (t : Fin cfg0.N) : Vec Ideal S64x1024 .f32 := iblk m c 4 t
abbrev lnwblk (c : Dev nD) (t : Fin cfg0.N) : Vec Ideal S1024 .f32 := iblk m c 5 t
abbrev lnbblk (c : Dev nD) (t : Fin cfg0.N) : Vec Ideal S64x1024 .f32 := iblk m c 6 t

abbrev xarr (c : Dev nD) : Vec Ideal S512x64x1024 .f32 := V m c main_arg1
abbrev w1tarr (c : Dev nD) : Vec Ideal S1024x4096 .bf16 := V m c main_v22
abbrev b1garr (c : Dev nD) : Vec Ideal S64x4096 .f32 := V m c main_v6
abbrev w2tarr (c : Dev nD) : Vec Ideal S4096x1024 .bf16 := V m c main_v24
abbrev b2garr (c : Dev nD) : Vec Ideal S64x1024 .f32 := V m c main_v13
abbrev lnwarr (c : Dev nD) : Vec Ideal S1024 .f32 := V m c main_arg6
abbrev lnbgarr (c : Dev nD) : Vec Ideal S64x1024 .f32 := V m c main_v20

/-! ## The printed index maps, decided over the grid -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val % 4 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 3) = t.val / 4 ∧ win0_7.index t (1 : Fin 3) = 0 ∧ win0_7.index t (2 : Fin 3) = 0 :=
  (by decide +kernel : ∀ t : Fin grid0.N, _)

/-! ## Each block at an index -/

/-- Row `t'` of the point's block of `x` is row `16 (t / 4) + t'` of `x`. -/
theorem xblk_apply (c : Dev nD) (t : Fin cfg0.N) (si hi : ℕ) (ht : t.val = 4 * si + hi) (hhi : hi < 4) (t' : Fin 16) (b : Fin 64) (e : Fin 1024) (hs : 16 * si + t'.val < 512) :
    xblk m c t (ix3 t' b e) = xarr m c (ix3 ⟨16 * si + t'.val, hs⟩ b e) := by
  obtain ⟨e0, e1, e2, -⟩ := idx_facts t
  unfold xblk iblk
  rw [View.read_apply]
  show V m c main_arg1 _ = V m c main_arg1 _
  congr 1
  funext a; apply Fin.ext
  match a with
  | ⟨0, _⟩ => show win0_0.index t (0 : Fin 3) * 16 + 1 * t'.val = 16 * si + t'.val; omega
  | ⟨1, _⟩ => show win0_0.index t (1 : Fin 3) * 64 + 1 * b.val = b.val; omega
  | ⟨2, _⟩ => show win0_0.index t (2 : Fin 3) * 1024 + 1 * e.val = e.val; omega

/-- Column `k` of the point's block of the transposed first weights is hidden unit `1024 (t % 4) + k`. -/
theorem w1blk_apply (c : Dev nD) (t : Fin cfg0.N) (si hi : ℕ) (ht : t.val = 4 * si + hi) (hhi : hi < 4) (e k : Fin 1024) (hh : 1024 * hi + k.val < 4096) :
    w1blk m c t (ix2 e k) = w1tarr m c (ix2 e ⟨1024 * hi + k.val, hh⟩) := by
  obtain ⟨-, -, -, e0, e1, -⟩ := idx_facts t
  unfold w1blk iblk
  rw [View.read_apply]
  show V m c main_v22 _ = V m c main_v22 _
  congr 1
  funext a; apply Fin.ext
  match a with
  | ⟨0, _⟩ => show win0_1.index t (0 : Fin 2) * 1024 + 1 * e.val = e.val; omega
  | ⟨1, _⟩ => show win0_1.index t (1 : Fin 2) * 1024 + 1 * k.val = 1024 * hi + k.val; omega

/-- Column `k` of the point's block of the gathered first bias is hidden unit `1024 (t % 4) + k`. -/
theorem b1blk_apply (c : Dev nD) (t : Fin cfg0.N) (si hi : ℕ) (ht : t.val = 4 * si + hi) (hhi : hi < 4) (b : Fin 64) (k : Fin 1024) (hh : 1024 * hi + k.val < 4096) :
    b1blk m c t (ix2 b k) = b1garr m c (ix2 b ⟨1024 * hi + k.val, hh⟩) := by
  obtain ⟨-, -, -, -, -, e0, e1, -⟩ := idx_facts t
  unfold b1blk iblk
  rw [View.read_apply]
  show V m c main_v6 _ = V m c main_v6 _
  congr 1
  funext a; apply Fin.ext
  match a with
  | ⟨0, _⟩ => show win0_2.index t (0 : Fin 2) * 64 + 1 * b.val = b.val; omega
  | ⟨1, _⟩ => show win0_2.index t (1 : Fin 2) * 1024 + 1 * k.val = 1024 * hi + k.val; omega

/-- Row `k` of the point's block of the transposed second weights is hidden unit `1024 (t % 4) + k`. -/
theorem w2blk_apply (c : Dev nD) (t : Fin cfg0.N) (si hi : ℕ) (ht : t.val = 4 * si + hi) (hhi : hi < 4) (k d : Fin 1024) (hh : 1024 * hi + k.val < 4096) :
    w2blk m c t (ix2 k d) = w2tarr m c (ix2 ⟨1024 * hi + k.val, hh⟩ d) := by
  obtain ⟨-, -, -, -, -, -, -, e0, e1, -⟩ := idx_facts t
  unfold w2blk iblk
  rw [View.read_apply]
  show V m c main_v24 _ = V m c main_v24 _
  congr 1
  funext a; apply Fin.ext
  match a with
  | ⟨0, _⟩ => show win0_3.index t (0 : Fin 2) * 1024 + 1 * k.val = 1024 * hi + k.val; omega
  | ⟨1, _⟩ => show win0_3.index t (1 : Fin 2) * 1024 + 1 * d.val = d.val; omega

/-- The gathered second bias is staged whole. -/
theorem b2blk_apply (c : Dev nD) (t : Fin cfg0.N) (b : Fin 64) (d : Fin 1024) :
    b2blk m c t (ix2 b d) = b2garr m c (ix2 b d) := by
  obtain ⟨-, -, -, -, -, -, -, -, -, e0, e1, -⟩ := idx_facts t
  unfold b2blk iblk
  rw [View.read_apply]
  show V m c main_v13 _ = V m c main_v13 _
  congr 1
  funext a; apply Fin.ext
  match a with
  | ⟨0, _⟩ => show win0_4.index t (0 : Fin 2) * 64 + 1 * b.val = b.val; omega
  | ⟨1, _⟩ => show win0_4.index t (1 : Fin 2) * 1024 + 1 * d.val = d.val; omega

/-- The scale is staged whole. -/
theorem lnwblk_apply (c : Dev nD) (t : Fin cfg0.N) (d : Fin 1024) :
    lnwblk m c t (ix1 d) = lnwarr m c (ix1 d) := by
  obtain ⟨-, -, -, -, -, -, -, -, -, -, -, e0, -⟩ := idx_facts t
  unfold lnwblk iblk
  rw [View.read_apply]
  show V m c main_arg6 _ = V m c main_arg6 _
  congr 1
  funext a; apply Fin.ext
  match a with
  | ⟨0, _⟩ => show win0_5.index t (0 : Fin 1) * 1024 + 1 * d.val = d.val; omega

/-- The gathered shift is staged whole. -/
theorem lnbblk_apply (c : Dev nD) (t : Fin cfg0.N) (b : Fin 64) (d : Fin 1024) :
    lnbblk m c t (ix2 b d) = lnbgarr m c (ix2 b d) := by
  obtain ⟨-, -, -, -, -, -, -, -, -, -, -, -, e0, e1, -⟩ := idx_facts t
  unfold lnbblk iblk
  rw [View.read_apply]
  show V m c main_v20 _ = V m c main_v20 _
  congr 1
  funext a; apply Fin.ext
  match a with
  | ⟨0, _⟩ => show win0_6.index t (0 : Fin 2) * 64 + 1 * b.val = b.val; omega
  | ⟨1, _⟩ => show win0_6.index t (1 : Fin 2) * 1024 + 1 * d.val = d.val; omega

/-! ## The point's contribution, over the arrays -/

/-- The row of `x` that slab `t'` of S-tile `si` holds for batch entry `b`. -/
abbrev xrow (c : Dev nD) (si : ℕ) (t' : Fin 16) (b : Fin 64) (hs : 16 * si + t'.val < 512) : Fin 1024 → EReal :=
  fun e => xarr m c (ix3 ⟨16 * si + t'.val, hs⟩ b e)
/-- The first weights, hidden unit by feature (the transposed array read back). -/
abbrev W1f (c : Dev nD) : Fin 4096 → Fin 1024 → EReal := fun h e => w1tarr m c (ix2 e h)
/-- The gathered first bias of batch entry `b`. -/
abbrev b1row (c : Dev nD) (b : Fin 64) : Fin 4096 → EReal := fun h => b1garr m c (ix2 b h)
/-- The second weights, output column by hidden unit (the transposed array read back). -/
abbrev W2f (c : Dev nD) : Fin 1024 → Fin 4096 → EReal := fun d h => w2tarr m c (ix2 h d)

/-- The contribution of the hidden block a point holds to entry `(t', b, d)` of its accumulator is block `t % 4`'s
    part of the row's pre-normalisation value. -/
theorem partB_blocks (c : Dev nD) (t : Fin cfg0.N) (si hi : ℕ) (ht : t.val = 4 * si + hi) (hhi : hi < 4) (t' : Fin 16) (b : Fin 64) (d : Fin 1024)
    (hs : 16 * si + t'.val < 512) :
    partB (xblk m c t) (w1blk m c t) (b1blk m c t) (w2blk m c t) t' b d
      = Cert.Spec.part (xrow m c si t' b hs) (W1f m c) (b1row m c b) (W2f m c) ⟨hi, hhi⟩ d := by
  unfold partB Cert.Spec.part
  refine Finset.sum_congr rfl fun k _ => ?_
  have hh : 1024 * hi + k.val < 4096 := by have := k.isLt; omega
  rw [w2blk_apply m c t si hi ht hhi k d hh, b1blk_apply m c t si hi ht hhi b k hh]
  have hx : (fun e => xblk m c t (ix3 t' b e)) = xrow m c si t' b hs := funext fun e => xblk_apply m c t si hi ht hhi t' b e hs
  have hw : (fun e => w1blk m c t (ix2 e k)) = W1f m c (Cert.Spec.hIdx ⟨hi, hhi⟩ k) := funext fun e => w1blk_apply m c t si hi ht hhi e k hh
  rw [hx, hw]
  rfl

end Cert.KernelIdeal.Blocks

end
-- ==== Proof.Steps.lean ====
/-
  One unrolled iteration of the kernel body as a function of the slab it works on.

  The body handles the sixteen rows `t` of a block of `x` one after the other.  In the accumulation phase row `t`
  contributes `relu (x_t · W1ᵀ + b1) · W2ᵀ` to slab `t` of the accumulator (`accStep`); in the closing phase slab `t`
  of the accumulator, the row itself and the bias are summed and normalised along the feature axis (`lnStep`).  Both are
  stated for any float instance; `accStep_apply` and `lnStep_apply` read them at an index over the extended reals,
  where a change of float format is the identity, a matrix product into a zero accumulator is a plain sum over the
  contracted index and a lane reduction is a plain sum over the lane.
-/
import proofs.«159844_j11184094839027_1_alg».proof.Proof.Gen.KernelIdeal.Skeleton
import proofs.«159844_j11184094839027_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Steps

open Cert.KernelIdeal Cert.KernelIdeal.Gen Idealize.ShloMosaic Idealize.ShloMosaic.TcCoe Idealize.ShloMosaic.ValueIdx

variable {F : FTy → Type} [FloatOps F]

/-- Row `t`'s update of its accumulator slab `a0`: `a0 + relu (x_t · w1 + b1) · w2`, the products taken in bf16 operands
    with f32 accumulation. -/
def accStep (w1 w2 : FVec F S1024x1024 .bf16) (b1 : FVec F S64x1024 .f32) (xt a0 : Vec F S1x64x1024 .f32) :
    FVec F S1x64x1024 .f32 :=
  have xr : FVec F S64x1024 .f32 := shapeCast S64x1024 xt shapeCasts_S1x64x1024_S64x1024
  have xb : FVec F S64x1024 .bf16 := truncf .bf16 xr bitsLt_bf16_f32
  have z1 : FVec F S64x1024 .f32 := constant S64x1024 .f32 0x00000000#32
  have s1 : FVec F S64x1024 .f32 := matmul dot_S64x1024_S1024x1024_S64x1024_1_0_0_1_n_n none xb w1 z1
  have s2 : FVec F S64x1024 .f32 := addf s1 b1
  have c0 : F .f32 := Scalar.ofBits .f32 0x00000000#32
  have zz : FVec F S64x1024 .f32 := broadcast S64x1024 c0
  have h : FVec F S64x1024 .f32 := maximumf s2 zz
  have hb : FVec F S64x1024 .bf16 := truncf .bf16 h bitsLt_bf16_f32
  have z2 : FVec F S64x1024 .f32 := constant S64x1024 .f32 0x00000000#32
  have p : FVec F S64x1024 .f32 := matmul dot_S64x1024_S1024x1024_S64x1024_1_0_0_1_n_n none hb w2 z2
  have ar : FVec F S64x1024 .f32 := shapeCast S64x1024 a0 shapeCasts_S1x64x1024_S64x1024
  have r : FVec F S64x1024 .f32 := addf ar p
  shapeCast S1x64x1024 r shapeCasts_S64x1024_S1x64x1024

/-- Row `t`'s output slab: `y = (a0 + x_t) + b2` normalised along the feature axis, scaled by `lnw`, shifted by `lnb`. -/
def lnStep (b2 lnb : FVec F S64x1024 .f32) (lnw : Vec F S1024 .f32) (xt a0 : Vec F S1x64x1024 .f32) :
    FVec F S1x64x1024 .f32 :=
  have xr : FVec F S64x1024 .f32 := shapeCast S64x1024 xt shapeCasts_S1x64x1024_S64x1024
  have ar : FVec F S64x1024 .f32 := shapeCast S64x1024 a0 shapeCasts_S1x64x1024_S64x1024
  have y0 : FVec F S64x1024 .f32 := addf ar xr
  have y : FVec F S64x1024 .f32 := addf y0 b2
  have sy : FVec F S64 .f32 := multiReduction .add [1] S64 y 0x00000000#32 reduces_S64x1024_S64 (.inl rfl) rfl
  have sy1 : FVec F S64x1 .f32 := shapeCast S64x1 sy shapeCasts_S64_S64x1
  have n1 : F .f32 := Scalar.ofBits .f32 0x44800000#32
  have nb1 : FVec F S64x1 .f32 := broadcast S64x1 n1
  have mu : FVec F S64x1 .f32 := divf sy1 nb1
  have mub : FVec F S64x1024 .f32 := broadcastTo S64x1024 mu broadcasts_S64x1_S64x1024
  have dy : FVec F S64x1024 .f32 := subf y mub
  have sq : FVec F S64x1024 .f32 := mulf dy dy
  have ss : FVec F S64 .f32 := multiReduction .add [1] S64 sq 0x00000000#32 reduces_S64x1024_S64 (.inl rfl) rfl
  have ss1 : FVec F S64x1 .f32 := shapeCast S64x1 ss shapeCasts_S64_S64x1
  have n2 : F .f32 := Scalar.ofBits .f32 0x44800000#32
  have nb2 : FVec F S64x1 .f32 := broadcast S64x1 n2
  have var : FVec F S64x1 .f32 := divf ss1 nb2
  have mub2 : FVec F S64x1024 .f32 := broadcastTo S64x1024 mu broadcasts_S64x1_S64x1024
  have dy2 : FVec F S64x1024 .f32 := subf y mub2
  have ep : F .f32 := Scalar.ofBits .f32 0x3727C5AC#32
  have epb : FVec F S64x1 .f32 := broadcast S64x1 ep
  have ve : FVec F S64x1 .f32 := addf var epb
  have rs : FVec F S64x1 .f32 := rsqrt ve
  have rsb : FVec F S64x1024 .f32 := broadcastTo S64x1024 rs broadcasts_S64x1_S64x1024
  have nrm : FVec F S64x1024 .f32 := mulf dy2 rsb
  have w1r : FVec F S1x1024 .f32 := shapeCast S1x1024 lnw shapeCasts_S1024_S1x1024
  have wb : FVec F S64x1024 .f32 := broadcastTo S64x1024 w1r broadcasts_S1x1024_S64x1024
  have sc : FVec F S64x1024 .f32 := mulf nrm wb
  have o : FVec F S64x1024 .f32 := addf sc lnb
  shapeCast S1x64x1024 o shapeCasts_S64x1024_S1x64x1024

/-! ## The product `[64,1024] × [1024,1024]` read at an index

The dot record contracts the left operand's axis 1 with the right operand's axis 0; the output's axis 0 is the left
operand's row, its axis 1 the right operand's column. -/

/-- The left operand's row is the output's row. -/
private theorem lhs_axis_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
/-- The left operand's column is the contracted coordinate. -/
private theorem lhs_axis_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
/-- The right operand's row is the contracted coordinate. -/
private theorem rhs_axis_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
/-- The right operand's column is the output's column. -/
private theorem rhs_axis_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- Over the extended reals the product into a zero accumulator, at `(b, d)`, is the sum over the contracted index `k`
    of the left operand at `(b, k)` times the right operand at `(k, d)`. -/
private theorem matmul_zero_apply (x : FVec Ideal S64x1024 .bf16) (w : FVec Ideal S1024x1024 .bf16) (b : Fin 64) (d : Fin 1024) :
    matmul dot_S64x1024_S1024x1024_S64x1024_1_0_0_1_n_n none x w (constant S64x1024 .f32 0x00000000#32) (ix2 b d)
      = ∑ k : Fin 1024, x (ix2 b k) * w (ix2 k d) := by
  simp only [matmul]
  rw [Ideal.matmul_constant_zero_apply, ← Equiv.sum_comp (ValueIdx.contrEquiv1 dot_S64x1024_S1024x1024_S64x1024_1_0_0_1_n_n 1024 rfl rfl).symm]
  refine Finset.sum_congr rfl fun k _ => ?_
  have hk := ValueIdx.contrEquiv1_symm_val dot_S64x1024_S1024x1024_S64x1024_1_0_0_1_n_n 1024 rfl rfl k
  have el : dot_S64x1024_S1024x1024_S64x1024_1_0_0_1_n_n.lhsIdx (ix2 b d) ((ValueIdx.contrEquiv1 dot_S64x1024_S1024x1024_S64x1024_1_0_0_1_n_n 1024 rfl rfl).symm k) = ix2 b k := funext fun a => Fin.ext (by
    match a with
    | ⟨0, _⟩ => exact lhs_axis_0 _ _
    | ⟨1, _⟩ => exact (lhs_axis_1 _ _).trans hk)
  have er : dot_S64x1024_S1024x1024_S64x1024_1_0_0_1_n_n.rhsIdx (ix2 b d) ((ValueIdx.contrEquiv1 dot_S64x1024_S1024x1024_S64x1024_1_0_0_1_n_n 1024 rfl rfl).symm k) = ix2 k d := funext fun a => Fin.ext (by
    match a with
    | ⟨0, _⟩ => exact (rhs_axis_0 _ _).trans hk
    | ⟨1, _⟩ => exact rhs_axis_1 _ _)
  rw [el, er]

/-- `accStep` at an index, over the extended reals: the slab's entry plus the sum over the 1024 hidden units of the block
    of the unit's activation on the row times its weight into column `d`. -/
theorem accStep_apply (w1 w2 : FVec Ideal S1024x1024 .bf16) (b1 : FVec Ideal S64x1024 .f32)
    (xt a0 : Vec Ideal S1x64x1024 .f32) (z : Fin 1) (b : Fin 64) (d : Fin 1024) :
    accStep w1 w2 b1 xt a0 (ix3 z b d)
      = a0 (ix3 z b d)
        + ∑ k : Fin 1024, Cert.Spec.act (fun e => xt (ix3 z b e)) (fun e => w1 (ix2 e k)) (b1 (ix2 b k)) * w2 (ix2 k d) := by
  -- the slab's leading axis has one coordinate
  obtain rfl : z = 0 := Subsingleton.elim _ _
  unfold accStep
  -- the result cast back to a slab, the sum with the slab's entry, the second product at (b, d)
  rw [shapeCast_ab_1ab_apply, addf_apply, shapeCast_1ab_ab_apply, matmul_zero_apply]
  refine congrArg (a0 (ix3 0 b d) + ·) (Finset.sum_congr rfl fun k _ => congrArg (· * w2 (ix2 k d)) ?_)
  -- the hidden unit k on row b: a change of format is the identity, the maximum with the zero splat, the first product at (b, k)
  rw [truncf_apply, maximumf_apply, addf_apply, broadcast_apply, matmul_zero_apply]
  unfold Cert.Spec.act
  have h0 : (FloatOps.ofBits .f32 0x00000000#32 : Ideal .f32) = 0 := Ideal.ofBits_zero_f32
  rw [h0]
  refine congrArg (fun s => max (s + b1 (ix2 b k)) 0) (Finset.sum_congr rfl fun e _ => congrArg (· * w1 (ix2 e k)) ?_)
  -- the row of x_t at feature e
  rw [truncf_apply, shapeCast_1ab_ab_apply]

/-! ## The layout operations of the normalisation read at an index -/

/-- A `[a]` array cast to `[a, 1]` reads, at `(i, u)`, the operand at `i`, whatever the unit coordinate `u`: the two
    row-major positions are `i` and `i * 1 + 0`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector is taken entry by entry. -/
private theorem rsqrt_apply {s : Shape} {φ : FTy} (v : FVec Ideal s φ) (i : s.Idx) : rsqrt v i = Ideal.rsqrt (v i) := rfl

/-- Over the extended reals the lane sum of a `[64, 1024]` array at row `b` is the sum over the 1024 lanes of its
    entries in that row: the reduced index with the lane `k` put back on axis 1 is `(b, k)`. -/
private theorem rowSum_apply (y : FVec Ideal S64x1024 .f32) (b : Fin 64) :
    multiReduction (F := Ideal) .add [1] S64 y 0x00000000#32 reduces_S64x1024_S64 (.inl rfl) rfl (ix1 b)
      = ∑ k : Fin 1024, y (ix2 b k) := by
  refine (Ideal.multiReduction_add_single y _ reduces_S64x1024_S64 _ _ (ix1 b)).trans ?_
  refine Finset.sum_congr rfl fun k _ => congrArg y ?_
  funext a
  match a with
  | ⟨0, _⟩ => exact Fin.ext rfl
  | ⟨1, _⟩ => exact Fin.ext rfl

/-- `lnStep` at an index, over the extended reals: the row `(a0 + x_t) + b2` normalised (`Cert.Spec.lnRow`). -/
theorem lnStep_apply (b2 lnb : FVec Ideal S64x1024 .f32) (lnw : Vec Ideal S1024 .f32)
    (xt a0 : Vec Ideal S1x64x1024 .f32) (z : Fin 1) (b : Fin 64) (d : Fin 1024) :
    lnStep b2 lnb lnw xt a0 (ix3 z b d)
      = Cert.Spec.lnRow (fun d' => (a0 (ix3 z b d') + xt (ix3 z b d')) + b2 (ix2 b d'))
          (fun d' => lnw (ix1 d')) (fun d' => lnb (ix2 b d')) d := by
  -- the slab's leading axis has one coordinate
  obtain rfl : z = 0 := Subsingleton.elim _ _
  unfold lnStep
  rw [shapeCast_ab_1ab_apply]
  -- the pointwise operations, the broadcasts and the casts at (b, d)
  simp only [addf_apply, mulf_apply, subf_apply, divf_apply, rsqrt_apply, broadcast_apply, broadcastTo_a1_ab_apply,
    broadcastTo_1b_ab_apply, shapeCast_a_1a_apply, shapeCast_a_a1_apply, shapeCast_1ab_ab_apply]
  -- the two lane sums at row b: of the row itself and of its squared deviations from the mean
  rw [rowSum_apply, rowSum_apply]
  simp only [addf_apply, mulf_apply, subf_apply, divf_apply, rsqrt_apply, broadcast_apply, broadcastTo_a1_ab_apply,
    broadcastTo_1b_ab_apply, shapeCast_a_1a_apply, shapeCast_a_a1_apply, shapeCast_1ab_ab_apply]
  -- the lane sum inside the mean that the squared deviations subtract
  rw [rowSum_apply]
  simp only [addf_apply, mulf_apply, subf_apply, divf_apply, rsqrt_apply, broadcast_apply, broadcastTo_a1_ab_apply,
    broadcastTo_1b_ab_apply, shapeCast_a_1a_apply, shapeCast_a_a1_apply, shapeCast_1ab_ab_apply]
  unfold Cert.Spec.lnRow Cert.Spec.muRow
  rfl

end Cert.KernelIdeal.Steps

end
-- ==== Proof.Pays.lean ====
/-
  Each unrolled iteration of the body is the same step.

  The printed body is cut into windows of sixty statements, so the sixteen accumulation iterations and the sixteen
  closing iterations reach the stores through differently nested intermediate values; unfolded, every one of them is
  the step function of Steps.lean applied to the iteration's row of `x` and its accumulator slab.
-/
import proofs.«159844_j11184094839027_1_alg».proof.Proof.Gen.KernelIdeal.Skeleton
import proofs.«159844_j11184094839027_1_alg».proof.Proof.Steps

noncomputable section

namespace Cert.KernelIdeal.Pays

open Cert.KernelIdeal Cert.KernelIdeal.Gen Idealize.ShloMosaic Idealize.ShloMosaic.TcCoe
open Cert.KernelIdeal.Steps

variable {F : FTy → Type} [FloatOps F]

/-! ## The accumulation iterations, rows 0 … 15 -/

section Acc
variable (w1 w2 : FVec F S1024x1024 .bf16) (b1 : FVec F S64x1024 .f32) (xt a0 : Vec F S1x64x1024 .f32)
variable (v3 v5 : Vec F S1024x1024 .bf16) (v7 : Vec F S64x1024 .f32)

theorem acc0 : k0_pay46 v3 v5 v7 xt a0 = accStep (k0_pay43 v3) (k0_pay44 v5) (k0_pay45 v7) xt a0 := rfl
theorem acc1 : k0_pay48 w2 (k0_pay47 v3 v7 xt) a0 = accStep (k0_pay43 v3) w2 (k0_pay45 v7) xt a0 := rfl
theorem acc2 : k0_pay49 w1 w2 b1 xt a0 = accStep w1 w2 b1 xt a0 := rfl
theorem acc3 : k0_pay51 (k0_pay50 w1 w2 b1 xt) a0 = accStep w1 w2 b1 xt a0 := rfl
theorem acc4 : k0_pay52 w1 w2 b1 xt a0 = accStep w1 w2 b1 xt a0 := rfl
theorem acc5 : k0_pay55 (k0_pay53 w1 w2 b1 xt) (k0_pay54 a0) = accStep w1 w2 b1 xt a0 := rfl
theorem acc6 : k0_pay56 w1 w2 b1 xt a0 = accStep w1 w2 b1 xt a0 := rfl
theorem acc7 : k0_pay58 (k0_pay57 w1 w2 b1 xt a0) = accStep w1 w2 b1 xt a0 := rfl
theorem acc8 : k0_pay59 w1 w2 b1 xt a0 = accStep w1 w2 b1 xt a0 := rfl
theorem acc9 : k0_pay60 w1 w2 b1 xt a0 = accStep w1 w2 b1 xt a0 := rfl
theorem acc10 : k0_pay61 w1 w2 b1 xt a0 = accStep w1 w2 b1 xt a0 := rfl
theorem acc11 : k0_pay62 w1 w2 b1 xt a0 = accStep w1 w2 b1 xt a0 := rfl
theorem acc12 : k0_pay63 w1 w2 b1 xt a0 = accStep w1 w2 b1 xt a0 := rfl
theorem acc13 : k0_pay64 w1 w2 b1 xt a0 = accStep w1 w2 b1 xt a0 := rfl
theorem acc14 : k0_pay66 w2 b1 (k0_pay65 w1 xt) a0 = accStep w1 w2 b1 xt a0 := rfl
theorem acc15 : k0_pay67 w1 w2 b1 xt a0 = accStep w1 w2 b1 xt a0 := rfl
end Acc

/-! ## The closing iterations, rows 0 … 15 -/

section Ln
variable (b2 lnb : FVec F S64x1024 .f32) (lnw : Vec F S1024 .f32) (xt a0 : Vec F S1x64x1024 .f32)
variable (v252 v254 : Vec F S64x1024 .f32)

theorem ln0 : k0_pay4 v252 v254 lnw xt a0 = lnStep (k0_pay2 v252) (k0_pay3 v254) lnw xt a0 := rfl
theorem ln1 : k0_pay5 b2 lnb lnw xt a0 = lnStep b2 lnb lnw xt a0 := rfl
theorem ln2 : k0_pay8 lnb lnw (k0_pay6 b2 xt a0) (k0_pay7 b2 xt a0) = lnStep b2 lnb lnw xt a0 := rfl
theorem ln3 : k0_pay13 lnb lnw (k0_pay11 b2 xt a0) (k0_pay12 b2 xt a0) = lnStep b2 lnb lnw xt a0 := rfl
theorem ln4 : k0_pay14 b2 lnb lnw xt a0 = lnStep b2 lnb lnw xt a0 := rfl
theorem ln5 : k0_pay15 b2 lnb lnw xt a0 = lnStep b2 lnb lnw xt a0 := rfl
theorem ln6 : k0_pay18 lnb lnw (k0_pay16 b2 xt a0) (k0_pay17 b2 xt a0) = lnStep b2 lnb lnw xt a0 := rfl
theorem ln7 : k0_pay23 lnb lnw (k0_pay19 b2 xt a0) (k0_pay21 b2 xt a0) (k0_pay22 b2 xt a0) = lnStep b2 lnb lnw xt a0 := rfl
theorem ln8 : k0_pay25 (k0_pay24 b2 lnb lnw xt a0) = lnStep b2 lnb lnw xt a0 := rfl
theorem ln9 : k0_pay26 b2 lnb lnw xt a0 = lnStep b2 lnb lnw xt a0 := rfl
theorem ln10 : k0_pay29 b2 lnb lnw (k0_pay27 xt) (k0_pay28 a0) = lnStep b2 lnb lnw xt a0 := rfl
theorem ln11 : k0_pay33 lnb lnw (k0_pay30 b2 xt a0) (k0_pay31 b2 xt a0) (k0_pay32 b2 xt a0) = lnStep b2 lnb lnw xt a0 := rfl
theorem ln12 : k0_pay35 lnb (k0_pay34 b2 lnw xt a0) = lnStep b2 lnb lnw xt a0 := rfl
theorem ln13 : k0_pay36 b2 lnb lnw xt a0 = lnStep b2 lnb lnw xt a0 := rfl
theorem ln14 : k0_pay38 b2 lnb lnw (k0_pay37 xt) a0 = lnStep b2 lnb lnw xt a0 := rfl
theorem ln15 : k0_pay1 lnb lnw (k0_pay39 b2 xt a0) (k0_pay40 b2 xt a0) (k0_pay41 b2 xt a0) = lnStep b2 lnb lnw xt a0 := rfl
end Ln

end Cert.KernelIdeal.Pays

end
-- ==== Proof.SlabsA.lean ====
/-
  The accumulator after a grid point of the FIRST hidden block, entry by entry, over the extended reals.

  The body zero-fills the whole accumulator, then for each row `t` re-reads slab `t` and stores it updated.  When slab
  `t` is re-read only the slabs below `t` have been overwritten, so the read sees the zero fill; after the sixteen
  updates every entry is `0 + ` its hidden block's contribution (`partB`).
-/
import proofs.«159844_j11184094839027_1_alg».proof.Proof.Gen.KernelIdeal.Frame
import proofs.«159844_j11184094839027_1_alg».proof.Proof.Steps
import proofs.«159844_j11184094839027_1_alg».proof.Proof.Pays
import proofs.«159844_j11184094839027_1_alg».proof.Proof.PartB
import Idealize.ShloMosaic.Lib.Pipeline.FrameBody
import Idealize.ShloMosaic.Lib.Pipeline.Value
import Idealize.ShloMosaic.Lib.ValueIdx
import Idealize.ShloMosaic.PureOps.Ideal.Laws
import Mathlib.Tactic.FinCases

set_option maxRecDepth 16384

noncomputable section

namespace Cert.KernelIdeal.Slabs

open Cert.KernelIdeal Cert.KernelIdeal.Gen Idealize.ShloMosaic Idealize.ShloMosaic.TcCoe Idealize.ShloMosaic.ValueIdx
open Cert.KernelIdeal.Steps

variable (c : Dev nD) (i : grid0.Coords) (arg2 : Memref sig .tc .vmem S16x64x1024 .f32) (harg2 : arg2.IsWhole) (arg3 : Memref sig .tc .vmem S1024x1024 .bf16) (harg3 : arg3.IsWhole) (arg4 : Memref sig .tc .vmem S64x1024 .f32) (harg4 : arg4.IsWhole) (arg5 : Memref sig .tc .vmem S1024x1024 .bf16) (harg5 : arg5.IsWhole) (arg6 : Memref sig .tc .vmem S64x1024 .f32) (harg6 : arg6.IsWhole) (arg7 : Memref sig .tc .vmem S1024 .f32) (harg7 : arg7.IsWhole) (arg8 : Memref sig .tc .vmem S64x1024 .f32) (harg8 : arg8.IsWhole) (arg9 : Memref sig .tc .vmem S16x64x1024 .f32) (harg9 : arg9.IsWhole) (arg10 : Memref sig .tc .vmem S16x64x1024 .f32) (harg10 : arg10.IsWhole)

/-- The all-zero offsets of a rank-2 whole-array rectangle. -/
private theorem hz2 : (![0, 0] : Fin 2 → Nat) = fun _ => 0 := funext fun a => by fin_cases a <;> rfl
/-- The all-zero offsets of a rank-3 whole-array rectangle. -/
private theorem hz3 : (![0, 0, 0] : Fin 3 → Nat) = fun _ => 0 := funext fun a => by fin_cases a <;> rfl

/-- Slab `k` places its local entry `(0, b, d)` at `(k, b, d)`: offsets `(k, 0, 0)`, unit strides. -/
private theorem slab_emb (k : ℕ) (hk : k < 16) (inb : ∀ a, ![k, 0, 0] a + S1x64x1024.size a ≤ S16x64x1024.size a)
    (z : Fin 1) (b : Fin 64) (d : Fin 1024) :
    (Rect.unit (s := S16x64x1024) ![k, 0, 0] S1x64x1024.size inb).emb (ix3 z b d) = ix3 ⟨k, hk⟩ b d := by
  funext a
  apply Fin.ext
  rw [Rect.emb_apply]
  match a with
  | ⟨0, _⟩ =>
    have hz : (z : ℕ) = 0 := by have := z.isLt; omega
    show k + 1 * (z : ℕ) = k
    omega
  | ⟨1, _⟩ => show 0 + 1 * (b : ℕ) = b; omega
  | ⟨2, _⟩ => show 0 + 1 * (d : ℕ) = d; omega

/-- An entry `(t, b, d)` lies in slab `k` only if `t = k`. -/
private theorem slab_mem (k : ℕ) (inb : ∀ a, ![k, 0, 0] a + S1x64x1024.size a ≤ S16x64x1024.size a)
    (t : Fin 16) (b : Fin 64) (d : Fin 1024)
    (hm : ix3 t b d ∈ (Rect.unit (s := S16x64x1024) ![k, 0, 0] S1x64x1024.size inb).set) : t.val = k := by
  have h0 := (Rect.mem_set_unit.mp hm) 0
  have h0' : k ≤ t.val ∧ t.val < k + 1 := h0
  omega

/-- A load of slab `k` of the `x` block reads row `k` of it. -/
private theorem slab_read (k : ℕ) (hk : k < 16) (inb : ∀ a, ![k, 0, 0] a + S1x64x1024.size a ≤ S16x64x1024.size a)
    (x0 : Vec Ideal S16x64x1024 .f32) (z : Fin 1) (b : Fin 64) (e : Fin 1024) :
    View.readAt (Elt Ideal) arg2.view (Rect.unit (s := S16x64x1024) ![k, 0, 0] S1x64x1024.size inb).toLoadRect
        (harg2.unread x0) (ix3 z b e) = x0 (ix3 ⟨k, hk⟩ b e) := by
  rw [View.readAt_eq_ld, harg2.read_unread]
  show x0 ((Rect.unit (s := S16x64x1024) ![k, 0, 0] S1x64x1024.size inb).emb (ix3 z b e)) = _
  rw [slab_emb k hk]

/-- The whole load of the first weight block, shape-cast to its own shape, is the block. -/
private theorem w1_eq (x1 : Vec Ideal S1024x1024 .bf16) :
    k0_pay43 (F := Ideal) (View.readAt (Elt Ideal) arg3.view (Rect.unit ![0, 0] S1024x1024.size inb_S1024x1024_S1024x1024_0_0).toLoadRect
      (harg3.unread x1)) = x1 := by
  unfold k0_pay43
  rw [shapeCast_self, View.readAt_eq_ld, harg3.read_unread, View.ld_unit_zero hz2]

/-- The whole load of the second weight block, shape-cast to its own shape, is the block. -/
private theorem w2_eq (x3 : Vec Ideal S1024x1024 .bf16) :
    k0_pay44 (F := Ideal) (View.readAt (Elt Ideal) arg5.view (Rect.unit ![0, 0] S1024x1024.size inb_S1024x1024_S1024x1024_0_0).toLoadRect
      (harg5.unread x3)) = x3 := by
  unfold k0_pay44
  rw [shapeCast_self, View.readAt_eq_ld, harg5.read_unread, View.ld_unit_zero hz2]

/-- The whole load of the bias block, shape-cast to its own shape, is the block. -/
private theorem b1_eq (x2 : Vec Ideal S64x1024 .f32) :
    k0_pay45 (F := Ideal) (View.readAt (Elt Ideal) arg4.view (Rect.unit ![0, 0] S64x1024.size inb_S64x1024_S64x1024_0_0).toLoadRect
      (harg4.unread x2)) = x2 := by
  unfold k0_pay45
  rw [shapeCast_self, View.readAt_eq_ld, harg4.read_unread, View.ld_unit_zero hz2]

/-- After the zero fill alone every entry is `0`. -/
private theorem claim1 (x0 : Vec Ideal S16x64x1024 .f32) (x1 : Vec Ideal S1024x1024 .bf16) (x2 : Vec Ideal S64x1024 .f32)
    (x3 : Vec Ideal S1024x1024 .bf16) (t : Fin 16) (b : Fin 64) (d : Fin 1024) :
    View.canon (kernelRun0_A.sl.HS0_1 (F := Ideal)) (ix3 t b d)
      = if t.val < 0 then 0 + partB x0 x1 x2 x3 t b d else 0 := by
  unfold kernelRun0_A.sl.HS0_1
  rw [View.canon_unit_zero hz3, if_neg (Nat.not_lt_zero _)]
  unfold k0_pay42
  rw [shapeCast_self]
  exact Ideal.ofBits_zero_f32

/-- Off slab `k` a store of slab `k` changes nothing. -/
private theorem step_off (k : ℕ) (inb : ∀ a, ![k, 0, 0] a + S1x64x1024.size a ≤ S16x64x1024.size a)
    (L : List (View.Piece (Elt Ideal) S16x64x1024 .f32)) (pay : Vec Ideal S1x64x1024 .f32)
    (t : Fin 16) (b : Fin 64) (d : Fin 1024) (h : ¬ t.val = k) :
    View.canon (⟨Rect.unit (s := S16x64x1024) ![k, 0, 0] S1x64x1024.size inb, pay⟩ :: L) (ix3 t b d)
      = View.canon L (ix3 t b d) :=
  View.canon_cons_of_not_mem (Val := Elt Ideal)
    (⟨Rect.unit (s := S16x64x1024) ![k, 0, 0] S1x64x1024.size inb, pay⟩ : View.Piece (Elt Ideal) S16x64x1024 .f32) L
    (fun hm => h (slab_mem k inb t b d hm))

/-- On slab `k` a store of slab `k` leaves its payload. -/
private theorem step_on (k : ℕ) (hk : k < 16) (inb : ∀ a, ![k, 0, 0] a + S1x64x1024.size a ≤ S16x64x1024.size a)
    (L : List (View.Piece (Elt Ideal) S16x64x1024 .f32)) (pay : Vec Ideal S1x64x1024 .f32)
    (b : Fin 64) (d : Fin 1024) :
    View.canon (⟨Rect.unit (s := S16x64x1024) ![k, 0, 0] S1x64x1024.size inb, pay⟩ :: L) (ix3 ⟨k, hk⟩ b d)
      = pay (ix3 0 b d) := by
  have e := View.canon_cons_emb (Val := Elt Ideal) (Rect.unit (s := S16x64x1024) ![k, 0, 0] S1x64x1024.size inb) pay L (ix3 0 b d)
  rw [slab_emb k hk] at e
  exact e

/-- A re-read of slab `k` after the stores `L` reads what they left on row `k`. -/
private theorem slab_reread (k : ℕ) (hk : k < 16) (inb : ∀ a, ![k, 0, 0] a + S1x64x1024.size a ≤ S16x64x1024.size a)
    (L : List (View.Piece (Elt Ideal) S16x64x1024 .f32)) (z : Fin 1) (b : Fin 64) (d : Fin 1024) :
    arg10.view.readCov L (Rect.unit (s := S16x64x1024) ![k, 0, 0] S1x64x1024.size inb).toLoadRect (ix3 z b d)
      = View.canon L (ix3 ⟨k, hk⟩ b d) := by
  rw [View.readCov_eq_canon']
  show View.canon L ((Rect.unit (s := S16x64x1024) ![k, 0, 0] S1x64x1024.size inb).emb (ix3 z b d)) = _
  rw [slab_emb k hk]

/-- One update: if the stores so far leave `0 + partB` on the slabs below `k` and `0` elsewhere, then after slab `k`
    is re-read (it reads `0`) and stored updated by its row's contribution, the same holds with `k + 1`. -/
private theorem chain_step (k : ℕ) (hk : k < 16)
    (inb : ∀ a, ![k, 0, 0] a + S1x64x1024.size a ≤ S16x64x1024.size a)
    (L : List (View.Piece (Elt Ideal) S16x64x1024 .f32))
    (x0 : Vec Ideal S16x64x1024 .f32) (x1 : Vec Ideal S1024x1024 .bf16) (x2 : Vec Ideal S64x1024 .f32)
    (x3 : Vec Ideal S1024x1024 .bf16)
    (w1 w2 : FVec Ideal S1024x1024 .bf16) (b1 : FVec Ideal S64x1024 .f32)
    (hw1 : w1 = x1) (hw2 : w2 = x3) (hb1 : b1 = x2)
    (hL : ∀ (t : Fin 16) (b : Fin 64) (d : Fin 1024),
      View.canon L (ix3 t b d) = if t.val < k then 0 + partB x0 x1 x2 x3 t b d else 0)
    (t : Fin 16) (b : Fin 64) (d : Fin 1024) :
    View.canon (⟨Rect.unit (s := S16x64x1024) ![k, 0, 0] S1x64x1024.size inb,
        accStep w1 w2 b1
          (View.readAt (Elt Ideal) arg2.view (Rect.unit (s := S16x64x1024) ![k, 0, 0] S1x64x1024.size inb).toLoadRect
            (harg2.unread x0))
          (arg10.view.readCov L (Rect.unit (s := S16x64x1024) ![k, 0, 0] S1x64x1024.size inb).toLoadRect)⟩ :: L)
        (ix3 t b d)
      = if t.val < k + 1 then 0 + partB x0 x1 x2 x3 t b d else 0 := by
  subst hw1 hw2 hb1
  by_cases h : t.val = k
  · -- the entry is in slab `k`: it reads the new payload, and the re-read slab is still zero
    have ht : t = ⟨k, hk⟩ := Fin.ext h
    subst ht
    rw [step_on k hk inb L, accStep_apply, slab_reread arg10 k hk inb L, hL,
      if_neg (show ¬ ((⟨k, hk⟩ : Fin 16) : ℕ) < k from Nat.lt_irrefl k),
      if_pos (show ((⟨k, hk⟩ : Fin 16) : ℕ) < k + 1 from Nat.lt_succ_self k)]
    simp only [slab_read arg2 harg2 k hk inb x0]
    rfl
  · -- the entry is off slab `k`: it keeps what the earlier stores left
    rw [step_off k inb L _ t b d h, hL]
    by_cases hlt : t.val < k
    · rw [if_pos hlt, if_pos (by omega)]
    · rw [if_neg hlt, if_neg (by omega)]

/-- The first weight block as the body names it. -/
private theorem r_eq (x1 : Vec Ideal S1024x1024 .bf16) : kernelRun0_A.sl.r (F := Ideal) c arg3 harg3 x1 = x1 :=
  w1_eq arg3 harg3 x1
/-- The second weight block as the body names it. -/
private theorem r1_eq (x3 : Vec Ideal S1024x1024 .bf16) : kernelRun0_A.sl.r_1 (F := Ideal) c arg5 harg5 x3 = x3 :=
  w2_eq arg5 harg5 x3
/-- The bias block as the body names it. -/
private theorem r2_eq (x2 : Vec Ideal S64x1024 .f32) : kernelRun0_A.sl.r_2 (F := Ideal) c arg4 harg4 x2 = x2 :=
  b1_eq arg4 harg4 x2

/-- After the updates of slabs `0 … 0`. -/
private theorem claim2 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_2 (F := Ideal) c arg2 harg2 arg3 harg3 arg4 harg4 arg5 harg5 arg10 x0 x1 x2 x3) (ix3 t b d) = if t.val < 1 then 0 + partB x0 x1 x2 x3 t b d else 0 := by
  unfold kernelRun0_A.sl.HS0_2 kernelRun0_A.sl.v18
  rw [Pays.acc0]
  exact chain_step arg2 harg2 arg10 0 (by decide) inb_S16x64x1024_S1x64x1024_0_0_0 (kernelRun0_A.sl.HS0_1 (F := Ideal)) x0 x1 x2 x3 _ _ _
    (w1_eq arg3 harg3 x1) (w2_eq arg5 harg5 x3) (b1_eq arg4 harg4 x2) (claim1 x0 x1 x2 x3) t b d

/-- After the updates of slabs `0 … 1`. -/
private theorem claim3 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_3 (F := Ideal) c arg2 harg2 arg3 harg3 arg4 harg4 arg5 harg5 arg10 x0 x1 x2 x3) (ix3 t b d) = if t.val < 2 then 0 + partB x0 x1 x2 x3 t b d else 0 := by
  unfold kernelRun0_A.sl.HS0_3 kernelRun0_A.sl.r_3 kernelRun0_A.sl.v33
  rw [Pays.acc1]
  exact chain_step arg2 harg2 arg10 1 (by decide) inb_S16x64x1024_S1x64x1024_1_0_0 (kernelRun0_A.sl.HS0_2 (F := Ideal) c arg2 harg2 arg3 harg3 arg4 harg4 arg5 harg5 arg10 x0 x1 x2 x3) x0 x1 x2 x3 _ _ _
    (w1_eq arg3 harg3 x1) (r1_eq c arg5 harg5 x3) (b1_eq arg4 harg4 x2) (claim2 c arg2 harg2 arg3 harg3 arg4 harg4 arg5 harg5 arg10 x0 x1 x2 x3) t b d

/-- After the updates of slabs `0 … 2`. -/
private theorem claim4 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_4 (F := Ideal) c arg2 harg2 arg3 harg3 arg4 harg4 arg5 harg5 arg10 x0 x1 x2 x3) (ix3 t b d) = if t.val < 3 then 0 + partB x0 x1 x2 x3 t b d else 0 := by
  unfold kernelRun0_A.sl.HS0_4 kernelRun0_A.sl.v48
  rw [Pays.acc2]
  exact chain_step arg2 harg2 arg10 2 (by decide) inb_S16x64x1024_S1x64x1024_2_0_0 (kernelRun0_A.sl.HS0_3 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim3 c arg2 harg2 arg3 harg3 arg4 harg4 arg5 harg5 arg10 x0 x1 x2 x3) t b d

/-- After the updates of slabs `0 … 3`. -/
private theorem claim5 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_5 (F := Ideal) c arg2 harg2 arg3 harg3 arg4 harg4 arg5 harg5 arg10 x0 x1 x2 x3) (ix3 t b d) = if t.val < 4 then 0 + partB x0 x1 x2 x3 t b d else 0 := by
  unfold kernelRun0_A.sl.HS0_5 kernelRun0_A.sl.r_4 kernelRun0_A.sl.v63
  rw [Pays.acc3]
  exact chain_step arg2 harg2 arg10 3 (by decide) inb_S16x64x1024_S1x64x1024_3_0_0 (kernelRun0_A.sl.HS0_4 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim4 c arg2 harg2 arg3 harg3 arg4 harg4 arg5 harg5 arg10 x0 x1 x2 x3) t b d

/-- After the updates of slabs `0 … 4`. -/
private theorem claim6 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_6 (F := Ideal) c arg2 harg2 arg3 harg3 arg4 harg4 arg5 harg5 arg10 x0 x1 x2 x3) (ix3 t b d) = if t.val < 5 then 0 + partB x0 x1 x2 x3 t b d else 0 := by
  unfold kernelRun0_A.sl.HS0_6 kernelRun0_A.sl.v78
  rw [Pays.acc4]
  exact chain_step arg2 harg2 arg10 4 (by decide) inb_S16x64x1024_S1x64x1024_4_0_0 (kernelRun0_A.sl.HS0_5 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim5 c arg2 harg2 arg3 harg3 arg4 harg4 arg5 harg5 arg10 x0 x1 x2 x3) t b d

/-- After the updates of slabs `0 … 5`. -/
private theorem claim7 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_7 (F := Ideal) c arg2 harg2 arg3 harg3 arg4 harg4 arg5 harg5 arg10 x0 x1 x2 x3) (ix3 t b d) = if t.val < 6 then 0 + partB x0 x1 x2 x3 t b d else 0 := by
  unfold kernelRun0_A.sl.HS0_7 kernelRun0_A.sl.r_5 kernelRun0_A.sl.r_6 kernelRun0_A.sl.v93
  rw [Pays.acc5]
  exact chain_step arg2 harg2 arg10 5 (by decide) inb_S16x64x1024_S1x64x1024_5_0_0 (kernelRun0_A.sl.HS0_6 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim6 c arg2 harg2 arg3 harg3 arg4 harg4 arg5 harg5 arg10 x0 x1 x2 x3) t b d

/-- After the updates of slabs `0 … 6`. -/
private theorem claim8 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_8 (F := Ideal) c arg2 harg2 arg3 harg3 arg4 harg4 arg5 harg5 arg10 x0 x1 x2 x3) (ix3 t b d) = if t.val < 7 then 0 + partB x0 x1 x2 x3 t b d else 0 := by
  unfold kernelRun0_A.sl.HS0_8 kernelRun0_A.sl.v108
  rw [Pays.acc6]
  exact chain_step arg2 harg2 arg10 6 (by decide) inb_S16x64x1024_S1x64x1024_6_0_0 (kernelRun0_A.sl.HS0_7 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim7 c arg2 harg2 arg3 harg3 arg4 harg4 arg5 harg5 arg10 x0 x1 x2 x3) t b d

/-- After the updates of slabs `0 … 7`. -/
private theorem claim9 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_9 (F := Ideal) c arg2 harg2 arg3 harg3 arg4 harg4 arg5 harg5 arg10 x0 x1 x2 x3) (ix3 t b d) = if t.val < 8 then 0 + partB x0 x1 x2 x3 t b d else 0 := by
  unfold kernelRun0_A.sl.HS0_9 kernelRun0_A.sl.r_7 kernelRun0_A.sl.v123
  rw [Pays.acc7]
  exact chain_step arg2 harg2 arg10 7 (by decide) inb_S16x64x1024_S1x64x1024_7_0_0 (kernelRun0_A.sl.HS0_8 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim8 c arg2 harg2 arg3 harg3 arg4 harg4 arg5 harg5 arg10 x0 x1 x2 x3) t b d

/-- After the updates of slabs `0 … 8`. -/
private theorem claim10 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_10 (F := Ideal) c arg2 harg2 arg3 harg3 arg4 harg4 arg5 harg5 arg10 x0 x1 x2 x3) (ix3 t b d) = if t.val < 9 then 0 + partB x0 x1 x2 x3 t b d else 0 := by
  unfold kernelRun0_A.sl.HS0_10 kernelRun0_A.sl.v138
  rw [Pays.acc8]
  exact chain_step arg2 harg2 arg10 8 (by decide) inb_S16x64x1024_S1x64x1024_8_0_0 (kernelRun0_A.sl.HS0_9 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim9 c arg2 harg2 arg3 harg3 arg4 harg4 arg5 harg5 arg10 x0 x1 x2 x3) t b d

/-- After the updates of slabs `0 … 9`. -/
private theorem claim11 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_11 (F := Ideal) c arg2 harg2 arg3 harg3 arg4 harg4 arg5 harg5 arg10 x0 x1 x2 x3) (ix3 t b d) = if t.val < 10 then 0 + partB x0 x1 x2 x3 t b d else 0 := by
  unfold kernelRun0_A.sl.HS0_11 kernelRun0_A.sl.v153
  rw [Pays.acc9]
  exact chain_step arg2 harg2 arg10 9 (by decide) inb_S16x64x1024_S1x64x1024_9_0_0 (kernelRun0_A.sl.HS0_10 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim10 c arg2 harg2 arg3 harg3 arg4 harg4 arg5 harg5 arg10 x0 x1 x2 x3) t b d

/-- After the updates of slabs `0 … 10`. -/
private theorem claim12 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_12 (F := Ideal) c arg2 harg2 arg3 harg3 arg4 harg4 arg5 harg5 arg10 x0 x1 x2 x3) (ix3 t b d) = if t.val < 11 then 0 + partB x0 x1 x2 x3 t b d else 0 := by
  unfold kernelRun0_A.sl.HS0_12 kernelRun0_A.sl.v168
  rw [Pays.acc10]
  exact chain_step arg2 harg2 arg10 10 (by decide) inb_S16x64x1024_S1x64x1024_10_0_0 (kernelRun0_A.sl.HS0_11 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim11 c arg2 harg2 arg3 harg3 arg4 harg4 arg5 harg5 arg10 x0 x1 x2 x3) t b d

/-- After the updates of slabs `0 … 11`. -/
private theorem claim13 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_13 (F := Ideal) c arg2 harg2 arg3 harg3 arg4 harg4 arg5 harg5 arg10 x0 x1 x2 x3) (ix3 t b d) = if t.val < 12 then 0 + partB x0 x1 x2 x3 t b d else 0 := by
  unfold kernelRun0_A.sl.HS0_13 kernelRun0_A.sl.v183
  rw [Pays.acc11]
  exact chain_step arg2 harg2 arg10 11 (by decide) inb_S16x64x1024_S1x64x1024_11_0_0 (kernelRun0_A.sl.HS0_12 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim12 c arg2 harg2 arg3 harg3 arg4 harg4 arg5 harg5 arg10 x0 x1 x2 x3) t b d

/-- After the updates of slabs `0 … 12`. -/
private theorem claim14 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_14 (F := Ideal) c arg2 harg2 arg3 harg3 arg4 harg4 arg5 harg5 arg10 x0 x1 x2 x3) (ix3 t b d) = if t.val < 13 then 0 + partB x0 x1 x2 x3 t b d else 0 := by
  unfold kernelRun0_A.sl.HS0_14 kernelRun0_A.sl.r_8 kernelRun0_A.sl.v198
  rw [Pays.acc12]
  exact chain_step arg2 harg2 arg10 12 (by decide) inb_S16x64x1024_S1x64x1024_12_0_0 (kernelRun0_A.sl.HS0_13 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim13 c arg2 harg2 arg3 harg3 arg4 harg4 arg5 harg5 arg10 x0 x1 x2 x3) t b d

/-- After the updates of slabs `0 … 13`. -/
private theorem claim15 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_15 (F := Ideal) c arg2 harg2 arg3 harg3 arg4 harg4 arg5 harg5 arg10 x0 x1 x2 x3) (ix3 t b d) = if t.val < 14 then 0 + partB x0 x1 x2 x3 t b d else 0 := by
  unfold kernelRun0_A.sl.HS0_15 kernelRun0_A.sl.v213
  rw [Pays.acc13]
  exact chain_step arg2 harg2 arg10 13 (by decide) inb_S16x64x1024_S1x64x1024_13_0_0 (kernelRun0_A.sl.HS0_14 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim14 c arg2 harg2 arg3 harg3 arg4 harg4 arg5 harg5 arg10 x0 x1 x2 x3) t b d

/-- After the updates of slabs `0 … 14`. -/
private theorem claim16 (x0 : Vec Ideal S16x64x1024 .f32) (x1 : Vec Ideal S1024x1024 .bf16) (x2 : Vec Ideal S64x1024 .f32) (x3 : Vec Ideal S1024x1024 .bf16) (t : Fin 16) (b : Fin 64) (d : Fin 1024) :
    View.canon (kernelRun0_A.sl.HS0_16 (F := Ideal) c arg2 harg2 arg3 harg3 arg4 harg4 arg5 harg5 arg10 x0 x1 x2 x3) (ix3 t b d) = if t.val < 15 then 0 + partB x0 x1 x2 x3 t b d else 0 := by
  unfold kernelRun0_A.sl.HS0_16 kernelRun0_A.sl.r_9 kernelRun0_A.sl.v228
  rw [Pays.acc14]
  exact chain_step arg2 harg2 arg10 14 (by decide) inb_S16x64x1024_S1x64x1024_14_0_0 (kernelRun0_A.sl.HS0_15 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim15 c arg2 harg2 arg3 harg3 arg4 harg4 arg5 harg5 arg10 x0 x1 x2 x3) t b d

/-- First hidden block: the accumulator is zero-filled, then updated slab by slab. -/
theorem sout_A_apply (hc0 : cond0_0 i) (hc1 : ¬cond0_1 i) (x0 : Vec Ideal S16x64x1024 .f32) (x1 : Vec Ideal S1024x1024 .bf16) (x2 : Vec Ideal S64x1024 .f32) (x3 : Vec Ideal S1024x1024 .bf16) (x4 : Vec Ideal S64x1024 .f32) (x5 : Vec Ideal S1024 .f32) (x6 : Vec Ideal S64x1024 .f32) (t : Fin 16) (b : Fin 64) (d : Fin 1024) :
    sout0_A_0 (F := Ideal) c i arg2 harg2 arg3 harg3 arg4 harg4 arg5 harg5 arg6 harg6 arg7 harg7 arg8 harg8 arg9 harg9 arg10 harg10 hc0 hc1 x0 x1 x2 x3 x4 x5 x6 (ix3 t b d)
      = 0 + partB x0 x1 x2 x3 t b d := by
  unfold sout0_A_0
  rw [View.read_writes_junk_eq_canon]
  unfold kernelRun0_A
  dsimp only
  unfold kernelRun0_A.sl.v243
  rw [Pays.acc15]
  have h := chain_step arg2 harg2 arg10 15 (by decide) inb_S16x64x1024_S1x64x1024_15_0_0 (kernelRun0_A.sl.HS0_16 (F := Ideal) c arg2 harg2 arg3 harg3 arg4 harg4 arg5 harg5 arg10 x0 x1 x2 x3) x0 x1 x2 x3
    (kernelRun0_A.sl.r (F := Ideal) c arg3 harg3 x1) (kernelRun0_A.sl.r_1 (F := Ideal) c arg5 harg5 x3) (kernelRun0_A.sl.r_2 (F := Ideal) c arg4 harg4 x2)
    (r_eq c arg3 harg3 x1) (r1_eq c arg5 harg5 x3) (r2_eq c arg4 harg4 x2) (claim16 c arg2 harg2 arg3 harg3 arg4 harg4 arg5 harg5 arg10 x0 x1 x2 x3) t b d
  rw [if_pos t.isLt] at h
  exact h

end Cert.KernelIdeal.Slabs

end
-- ==== Proof.SlabsBC.lean ====
/-
  The accumulator and the output block after a grid point of a LATER hidden block, entry by entry, over the extended reals.

  Each slab `t` of the accumulator is read as the point before left it (`xs0`) and stored once, updated by the hidden
  block's contribution (`partB`); the sixteen stores tile the buffer.  At the last hidden block the closing phase then
  re-reads each updated slab, adds the row of `x` and the bias, and stores the normalised row (`Cert.Spec.lnRow`) into
  slab `t` of the output block; those sixteen stores tile the output block.
-/
import proofs.«159844_j11184094839027_1_alg».proof.Proof.Gen.KernelIdeal.Frame
import proofs.«159844_j11184094839027_1_alg».proof.Proof.Steps
import proofs.«159844_j11184094839027_1_alg».proof.Proof.Pays
import proofs.«159844_j11184094839027_1_alg».proof.Proof.PartB

set_option maxRecDepth 16384

noncomputable section

namespace Cert.KernelIdeal.Slabs

open Cert.KernelIdeal Cert.KernelIdeal.Gen Idealize.ShloMosaic Idealize.ShloMosaic.TcCoe Idealize.ShloMosaic.ValueIdx
open Cert.KernelIdeal.Steps

variable (c : Dev nD) (i : grid0.Coords) (arg2 : Memref sig .tc .vmem S16x64x1024 .f32) (harg2 : arg2.IsWhole) (arg3 : Memref sig .tc .vmem S1024x1024 .bf16) (harg3 : arg3.IsWhole) (arg4 : Memref sig .tc .vmem S64x1024 .f32) (harg4 : arg4.IsWhole) (arg5 : Memref sig .tc .vmem S1024x1024 .bf16) (harg5 : arg5.IsWhole) (arg6 : Memref sig .tc .vmem S64x1024 .f32) (harg6 : arg6.IsWhole) (arg7 : Memref sig .tc .vmem S1024 .f32) (harg7 : arg7.IsWhole) (arg8 : Memref sig .tc .vmem S64x1024 .f32) (harg8 : arg8.IsWhole) (arg9 : Memref sig .tc .vmem S16x64x1024 .f32) (harg9 : arg9.IsWhole) (arg10 : Memref sig .tc .vmem S16x64x1024 .f32) (harg10 : arg10.IsWhole)

/-! ## Slabs, loads and the per-entry function of the accumulator -/

/-- What a later hidden block leaves at an entry of the accumulator: what was there plus the block's contribution. -/
private def accG (x0 : Vec Ideal S16x64x1024 .f32) (x1 : Vec Ideal S1024x1024 .bf16) (x2 : Vec Ideal S64x1024 .f32)
    (x3 : Vec Ideal S1024x1024 .bf16) (xs0 : Vec Ideal S16x64x1024 .f32) (y : S16x64x1024.Idx) : EReal :=
  xs0 y + partB x0 x1 x2 x3 (y 0) (y 1) (y 2)

/-- Slab `t` is row `t` of the buffer: its local entry `(0, b, d)` is the buffer's entry `(t, b, d)`. -/
private theorem slab_idx (t : ℕ) (ht : t < 16)
    (inb : ∀ a, (![t, 0, 0] : Fin 3 → ℕ) a + S1x64x1024.size a ≤ S16x64x1024.size a)
    (z : Fin 1) (b : Fin 64) (d : Fin 1024) :
    (Rect.unit (s := S16x64x1024) ![t, 0, 0] S1x64x1024.size inb).toLoadRect.idx (ix3 z b d) = ix3 ⟨t, ht⟩ b d := by
  funext a
  match a with
  | ⟨0, _⟩ => exact Fin.ext (by show t + 1 * (z : ℕ) = t; omega)
  | ⟨1, _⟩ => exact Fin.ext (by show 0 + 1 * (b : ℕ) = b; omega)
  | ⟨2, _⟩ => exact Fin.ext (by show 0 + 1 * (d : ℕ) = d; omega)

/-- The same through the slab's embedding. -/
private theorem slab_emb (t : ℕ) (ht : t < 16)
    (inb : ∀ a, (![t, 0, 0] : Fin 3 → ℕ) a + S1x64x1024.size a ≤ S16x64x1024.size a)
    (z : Fin 1) (b : Fin 64) (d : Fin 1024) :
    (Rect.unit (s := S16x64x1024) ![t, 0, 0] S1x64x1024.size inb).emb (ix3 z b d) = ix3 ⟨t, ht⟩ b d :=
  slab_idx t ht inb z b d

/-- A load from a whole buffer holding `X` reads `X` at the loaded coordinates. -/
private theorem readAt_unread {s : Shape} {e : EltTy} (m : Memref sig .tc .vmem s e) (h : m.IsWhole)
    (X : s.Idx → Elt Ideal e) (r : LoadRect s) (x : r.shape.Idx) :
    View.readAt (Elt Ideal) m.view r (h.unread X) x = X (r.idx x) := by
  rw [View.readAt_apply, h.read_unread]

/-- A load of the whole of a buffer holding `X` reads `X`. -/
private theorem readAt_whole {s : Shape} {e : EltTy} (m : Memref sig .tc .vmem s e) (h : m.IsWhole)
    (X : s.Idx → Elt Ideal e) {off : Fin s.rank → ℕ} (hoff : off = fun _ => 0)
    (inb : ∀ a, off a + s.size a ≤ s.size a) :
    View.readAt (Elt Ideal) m.view (Rect.unit off s.size inb).toLoadRect (h.unread X) = X := by
  rw [View.readAt_eq_ld, h.read_unread, View.ld_unit_zero hoff]

private theorem off2 : (![0, 0] : Fin 2 → ℕ) = fun _ => 0 := by
  funext a; match a with | ⟨0, _⟩ => rfl | ⟨1, _⟩ => rfl

private theorem off1 : (![0] : Fin 1 → ℕ) = fun _ => 0 := by
  funext a; match a with | ⟨0, _⟩ => rfl

/-- The three operands every row shares, loaded whole and recast to their own shapes, are the blocks themselves. -/
private theorem w1_eq (arg3 : Memref sig .tc .vmem S1024x1024 .bf16) (harg3 : arg3.IsWhole) (x1 : Vec Ideal S1024x1024 .bf16) :
    k0_pay43 (F := Ideal) (View.readAt (Elt Ideal) arg3.view
      (Rect.unit ![0, 0] S1024x1024.size inb_S1024x1024_S1024x1024_0_0).toLoadRect (harg3.unread x1)) = x1 := by
  unfold k0_pay43
  rw [shapeCast_self, readAt_whole arg3 harg3 x1 off2]

private theorem w2_eq (arg5 : Memref sig .tc .vmem S1024x1024 .bf16) (harg5 : arg5.IsWhole) (x3 : Vec Ideal S1024x1024 .bf16) :
    k0_pay44 (F := Ideal) (View.readAt (Elt Ideal) arg5.view
      (Rect.unit ![0, 0] S1024x1024.size inb_S1024x1024_S1024x1024_0_0).toLoadRect (harg5.unread x3)) = x3 := by
  unfold k0_pay44
  rw [shapeCast_self, readAt_whole arg5 harg5 x3 off2]

private theorem b1_eq (arg4 : Memref sig .tc .vmem S64x1024 .f32) (harg4 : arg4.IsWhole) (x2 : Vec Ideal S64x1024 .f32) :
    k0_pay45 (F := Ideal) (View.readAt (Elt Ideal) arg4.view
      (Rect.unit ![0, 0] S64x1024.size inb_S64x1024_S64x1024_0_0).toLoadRect (harg4.unread x2)) = x2 := by
  unfold k0_pay45
  rw [shapeCast_self, readAt_whole arg4 harg4 x2 off2]

/-- One store of the accumulation phase: the payload of row `t`, an `accStep` on the row of `x` and on slab `t` as the
    point before left it, is the per-entry function on slab `t`. -/
private theorem slab_piece (arg2 : Memref sig .tc .vmem S16x64x1024 .f32) (harg2 : arg2.IsWhole)
    (arg3 : Memref sig .tc .vmem S1024x1024 .bf16) (harg3 : arg3.IsWhole)
    (arg4 : Memref sig .tc .vmem S64x1024 .f32) (harg4 : arg4.IsWhole)
    (arg5 : Memref sig .tc .vmem S1024x1024 .bf16) (harg5 : arg5.IsWhole)
    (arg10 : Memref sig .tc .vmem S16x64x1024 .f32) (harg10 : arg10.IsWhole)
    (x0 : Vec Ideal S16x64x1024 .f32) (x1 : Vec Ideal S1024x1024 .bf16) (x2 : Vec Ideal S64x1024 .f32)
    (x3 : Vec Ideal S1024x1024 .bf16) (xs0 : Vec Ideal S16x64x1024 .f32)
    (t : ℕ) (ht : t < 16) (inb : ∀ a, (![t, 0, 0] : Fin 3 → ℕ) a + S1x64x1024.size a ≤ S16x64x1024.size a)
    (pay : Vec Ideal S1x64x1024 .f32)
    (hpay : pay = accStep
      (k0_pay43 (View.readAt (Elt Ideal) arg3.view (Rect.unit ![0, 0] S1024x1024.size inb_S1024x1024_S1024x1024_0_0).toLoadRect (harg3.unread x1)))
      (k0_pay44 (View.readAt (Elt Ideal) arg5.view (Rect.unit ![0, 0] S1024x1024.size inb_S1024x1024_S1024x1024_0_0).toLoadRect (harg5.unread x3)))
      (k0_pay45 (View.readAt (Elt Ideal) arg4.view (Rect.unit ![0, 0] S64x1024.size inb_S64x1024_S64x1024_0_0).toLoadRect (harg4.unread x2)))
      (View.readAt (Elt Ideal) arg2.view (Rect.unit (s := S16x64x1024) ![t, 0, 0] S1x64x1024.size inb).toLoadRect (harg2.unread x0))
      (View.readAt (Elt Ideal) arg10.view (Rect.unit (s := S16x64x1024) ![t, 0, 0] S1x64x1024.size inb).toLoadRect (harg10.unread xs0)))
    (x : S1x64x1024.Idx) :
    pay x = accG x0 x1 x2 x3 xs0 ((Rect.unit (s := S16x64x1024) ![t, 0, 0] S1x64x1024.size inb).emb x) := by
  subst hpay
  obtain ⟨z, b, d, rfl⟩ : ∃ (z : Fin 1) (b : Fin 64) (d : Fin 1024), x = ix3 z b d := ⟨x 0, x 1, x 2, eq_ix3 x⟩
  rw [slab_emb t ht inb, w1_eq, w2_eq, b1_eq, accStep_apply, readAt_unread, slab_idx t ht inb]
  have hrow : (fun e : Fin 1024 => View.readAt (Elt Ideal) arg2.view
      (Rect.unit (s := S16x64x1024) ![t, 0, 0] S1x64x1024.size inb).toLoadRect (harg2.unread x0) (ix3 z b e))
      = fun e => x0 (ix3 ⟨t, ht⟩ b e) := by
    funext e; rw [readAt_unread, slab_idx t ht inb]
  rw [hrow]
  rfl

/-- A middle hidden block: each slab updated over what the point before left (`xs0`). -/
theorem sout_B_apply (hc0 : ¬cond0_0 i) (hc1 : ¬cond0_1 i) (x0 : Vec Ideal S16x64x1024 .f32) (x1 : Vec Ideal S1024x1024 .bf16) (x2 : Vec Ideal S64x1024 .f32) (x3 : Vec Ideal S1024x1024 .bf16) (x4 : Vec Ideal S64x1024 .f32) (x5 : Vec Ideal S1024 .f32) (x6 : Vec Ideal S64x1024 .f32) (xs0 : Vec Ideal S16x64x1024 .f32) (t : Fin 16) (b : Fin 64) (d : Fin 1024) :
    sout0_B_0 (F := Ideal) c i arg2 harg2 arg3 harg3 arg4 harg4 arg5 harg5 arg6 harg6 arg7 harg7 arg8 harg8 arg9 harg9 arg10 harg10 hc0 hc1 x0 x1 x2 x3 x4 x5 x6 xs0 (ix3 t b d)
      = xs0 (ix3 t b d) + partB x0 x1 x2 x3 t b d := by
  unfold sout0_B_0
  rw [View.read_writes_junk_eq_canon]
  have hcover := scover0_B_0 (F := Ideal) c i arg2 harg2 arg3 harg3 arg4 harg4 arg5 harg5 arg6 harg6 arg7 harg7 arg8 harg8 arg9 harg9 arg10 harg10 hc0 hc1 x0 x1 x2 x3 x4 x5 x6 xs0 (ix3 t b d)
  refine (View.canon_apply_of_pieces (accG x0 x1 x2 x3 xs0) _ ?_ (ix3 t b d) hcover).trans rfl
  unfold kernelRun0_B
  dsimp only
  intro p hp
  simp only [List.mem_cons, List.not_mem_nil, or_false] at hp
  rcases hp with rfl | rfl | rfl | rfl | rfl | rfl | rfl | rfl | rfl | rfl | rfl | rfl | rfl | rfl | rfl | rfl
  · exact slab_piece arg2 harg2 arg3 harg3 arg4 harg4 arg5 harg5 arg10 harg10 x0 x1 x2 x3 xs0 15 (by omega) _ _ (Pays.acc15 _ _ _ _ _)
  · exact slab_piece arg2 harg2 arg3 harg3 arg4 harg4 arg5 harg5 arg10 harg10 x0 x1 x2 x3 xs0 14 (by omega) _ _ (Pays.acc14 _ _ _ _ _)
  · exact slab_piece arg2 harg2 arg3 harg3 arg4 harg4 arg5 harg5 arg10 harg10 x0 x1 x2 x3 xs0 13 (by omega) _ _ (Pays.acc13 _ _ _ _ _)
  · exact slab_piece arg2 harg2 arg3 harg3 arg4 harg4 arg5 harg5 arg10 harg10 x0 x1 x2 x3 xs0 12 (by omega) _ _ (Pays.acc12 _ _ _ _ _)
  · exact slab_piece arg2 harg2 arg3 harg3 arg4 harg4 arg5 harg5 arg10 harg10 x0 x1 x2 x3 xs0 11 (by omega) _ _ (Pays.acc11 _ _ _ _ _)
  · exact slab_piece arg2 harg2 arg3 harg3 arg4 harg4 arg5 harg5 arg10 harg10 x0 x1 x2 x3 xs0 10 (by omega) _ _ (Pays.acc10 _ _ _ _ _)
  · exact slab_piece arg2 harg2 arg3 harg3 arg4 harg4 arg5 harg5 arg10 harg10 x0 x1 x2 x3 xs0 9 (by omega) _ _ (Pays.acc9 _ _ _ _ _)
  · exact slab_piece arg2 harg2 arg3 harg3 arg4 harg4 arg5 harg5 arg10 harg10 x0 x1 x2 x3 xs0 8 (by omega) _ _ (Pays.acc8 _ _ _ _ _)
  · exact slab_piece arg2 harg2 arg3 harg3 arg4 harg4 arg5 harg5 arg10 harg10 x0 x1 x2 x3 xs0 7 (by omega) _ _ (Pays.acc7 _ _ _ _ _)
  · exact slab_piece arg2 harg2 arg3 harg3 arg4 harg4 arg5 harg5 arg10 harg10 x0 x1 x2 x3 xs0 6 (by omega) _ _ (Pays.acc6 _ _ _ _ _)
  · exact slab_piece arg2 harg2 arg3 harg3 arg4 harg4 arg5 harg5 arg10 harg10 x0 x1 x2 x3 xs0 5 (by omega) _ _ (Pays.acc5 _ _ _ _ _)
  · exact slab_piece arg2 harg2 arg3 harg3 arg4 harg4 arg5 harg5 arg10 harg10 x0 x1 x2 x3 xs0 4 (by omega) _ _ (Pays.acc4 _ _ _ _ _)
  · exact slab_piece arg2 harg2 arg3 harg3 arg4 harg4 arg5 harg5 arg10 harg10 x0 x1 x2 x3 xs0 3 (by omega) _ _ (Pays.acc3 _ _ _ _ _)
  · exact slab_piece arg2 harg2 arg3 harg3 arg4 harg4 arg5 harg5 arg10 harg10 x0 x1 x2 x3 xs0 2 (by omega) _ _ (Pays.acc2 _ _ _ _ _)
  · exact slab_piece arg2 harg2 arg3 harg3 arg4 harg4 arg5 harg5 arg10 harg10 x0 x1 x2 x3 xs0 1 (by omega) _ _ (Pays.acc1 _ _ _ _ _)
  · exact slab_piece arg2 harg2 arg3 harg3 arg4 harg4 arg5 harg5 arg10 harg10 x0 x1 x2 x3 xs0 0 (by omega) _ _ (Pays.acc0 _ _ _ _ _)

/-! ## The last hidden block -/

/-- The accumulator's sixteen stores of the last hidden block leave the per-entry function everywhere. -/
private theorem accC_canon (x0 : Vec Ideal S16x64x1024 .f32) (x1 : Vec Ideal S1024x1024 .bf16) (x2 : Vec Ideal S64x1024 .f32) (x3 : Vec Ideal S1024x1024 .bf16) (xs0 : Vec Ideal S16x64x1024 .f32)
    (hcover : ∀ y : S16x64x1024.Idx, ∃ p ∈ kernelRun0_C.sl.HS0_16 (F := Ideal) c arg2 harg2 arg3 harg3 arg4 harg4 arg5 harg5 arg10 harg10 x0 x1 x2 x3 xs0, y ∈ p.1.set)
    (y : S16x64x1024.Idx) :
    View.canon (kernelRun0_C.sl.HS0_16 (F := Ideal) c arg2 harg2 arg3 harg3 arg4 harg4 arg5 harg5 arg10 harg10 x0 x1 x2 x3 xs0) y = accG x0 x1 x2 x3 xs0 y := by
  refine View.canon_apply_of_pieces (accG x0 x1 x2 x3 xs0) _ ?_ y (hcover y)
  unfold kernelRun0_C.sl.HS0_16
  intro p hp
  simp only [List.mem_cons, List.not_mem_nil, or_false] at hp
  rcases hp with rfl | rfl | rfl | rfl | rfl | rfl | rfl | rfl | rfl | rfl | rfl | rfl | rfl | rfl | rfl | rfl
  · exact slab_piece arg2 harg2 arg3 harg3 arg4 harg4 arg5 harg5 arg10 harg10 x0 x1 x2 x3 xs0 15 (by omega) _ _ (Pays.acc15 _ _ _ _ _)
  · exact slab_piece arg2 harg2 arg3 harg3 arg4 harg4 arg5 harg5 arg10 harg10 x0 x1 x2 x3 xs0 14 (by omega) _ _ (Pays.acc14 _ _ _ _ _)
  · exact slab_piece arg2 harg2 arg3 harg3 arg4 harg4 arg5 harg5 arg10 harg10 x0 x1 x2 x3 xs0 13 (by omega) _ _ (Pays.acc13 _ _ _ _ _)
  · exact slab_piece arg2 harg2 arg3 harg3 arg4 harg4 arg5 harg5 arg10 harg10 x0 x1 x2 x3 xs0 12 (by omega) _ _ (Pays.acc12 _ _ _ _ _)
  · exact slab_piece arg2 harg2 arg3 harg3 arg4 harg4 arg5 harg5 arg10 harg10 x0 x1 x2 x3 xs0 11 (by omega) _ _ (Pays.acc11 _ _ _ _ _)
  · exact slab_piece arg2 harg2 arg3 harg3 arg4 harg4 arg5 harg5 arg10 harg10 x0 x1 x2 x3 xs0 10 (by omega) _ _ (Pays.acc10 _ _ _ _ _)
  · exact slab_piece arg2 harg2 arg3 harg3 arg4 harg4 arg5 harg5 arg10 harg10 x0 x1 x2 x3 xs0 9 (by omega) _ _ (Pays.acc9 _ _ _ _ _)
  · exact slab_piece arg2 harg2 arg3 harg3 arg4 harg4 arg5 harg5 arg10 harg10 x0 x1 x2 x3 xs0 8 (by omega) _ _ (Pays.acc8 _ _ _ _ _)
  · exact slab_piece arg2 harg2 arg3 harg3 arg4 harg4 arg5 harg5 arg10 harg10 x0 x1 x2 x3 xs0 7 (by omega) _ _ (Pays.acc7 _ _ _ _ _)
  · exact slab_piece arg2 harg2 arg3 harg3 arg4 harg4 arg5 harg5 arg10 harg10 x0 x1 x2 x3 xs0 6 (by omega) _ _ (Pays.acc6 _ _ _ _ _)
  · exact slab_piece arg2 harg2 arg3 harg3 arg4 harg4 arg5 harg5 arg10 harg10 x0 x1 x2 x3 xs0 5 (by omega) _ _ (Pays.acc5 _ _ _ _ _)
  · exact slab_piece arg2 harg2 arg3 harg3 arg4 harg4 arg5 harg5 arg10 harg10 x0 x1 x2 x3 xs0 4 (by omega) _ _ (Pays.acc4 _ _ _ _ _)
  · exact slab_piece arg2 harg2 arg3 harg3 arg4 harg4 arg5 harg5 arg10 harg10 x0 x1 x2 x3 xs0 3 (by omega) _ _ (Pays.acc3 _ _ _ _ _)
  · exact slab_piece arg2 harg2 arg3 harg3 arg4 harg4 arg5 harg5 arg10 harg10 x0 x1 x2 x3 xs0 2 (by omega) _ _ (Pays.acc2 _ _ _ _ _)
  · exact slab_piece arg2 harg2 arg3 harg3 arg4 harg4 arg5 harg5 arg10 harg10 x0 x1 x2 x3 xs0 1 (by omega) _ _ (Pays.acc1 _ _ _ _ _)
  · exact slab_piece arg2 harg2 arg3 harg3 arg4 harg4 arg5 harg5 arg10 harg10 x0 x1 x2 x3 xs0 0 (by omega) _ _ (Pays.acc0 _ _ _ _ _)

/-- The closing phase's three shared operands, loaded whole (two of them recast to their own shapes), are the blocks. -/
private theorem b2_eq (arg6 : Memref sig .tc .vmem S64x1024 .f32) (harg6 : arg6.IsWhole) (x4 : Vec Ideal S64x1024 .f32) :
    k0_pay2 (F := Ideal) (View.readAt (Elt Ideal) arg6.view
      (Rect.unit ![0, 0] S64x1024.size inb_S64x1024_S64x1024_0_0).toLoadRect (harg6.unread x4)) = x4 := by
  unfold k0_pay2
  rw [shapeCast_self, readAt_whole arg6 harg6 x4 off2]

private theorem lnb_eq (arg8 : Memref sig .tc .vmem S64x1024 .f32) (harg8 : arg8.IsWhole) (x6 : Vec Ideal S64x1024 .f32) :
    k0_pay3 (F := Ideal) (View.readAt (Elt Ideal) arg8.view
      (Rect.unit ![0, 0] S64x1024.size inb_S64x1024_S64x1024_0_0).toLoadRect (harg8.unread x6)) = x6 := by
  unfold k0_pay3
  rw [shapeCast_self, readAt_whole arg8 harg8 x6 off2]

private theorem lnw_eq (arg7 : Memref sig .tc .vmem S1024 .f32) (harg7 : arg7.IsWhole) (x5 : Vec Ideal S1024 .f32) :
    View.readAt (Elt Ideal) arg7.view (Rect.unit ![0] S1024.size inb_S1024_S1024_0).toLoadRect (harg7.unread x5) = x5 :=
  readAt_whole arg7 harg7 x5 off1 _

/-- What the last hidden block leaves at an entry of the output block: the normalised row of
    `(accumulator + x) + b2` at the entry's column. -/
private def outG (x0 : Vec Ideal S16x64x1024 .f32) (x1 : Vec Ideal S1024x1024 .bf16) (x2 : Vec Ideal S64x1024 .f32)
    (x3 : Vec Ideal S1024x1024 .bf16) (x4 : Vec Ideal S64x1024 .f32) (x5 : Vec Ideal S1024 .f32)
    (x6 : Vec Ideal S64x1024 .f32) (xs0 : Vec Ideal S16x64x1024 .f32) (y : S16x64x1024.Idx) : EReal :=
  Cert.Spec.lnRow (fun d' => ((xs0 (ix3 (y 0) (y 1) d') + partB x0 x1 x2 x3 (y 0) (y 1) d') + x0 (ix3 (y 0) (y 1) d')) + x4 (ix2 (y 1) d'))
    (fun d' => x5 (ix1 d')) (fun d' => x6 (ix2 (y 1) d')) (y 2)

/-- Slab `t` of the accumulator re-read after stores that left the per-entry function everywhere. -/
private theorem readCov_slab (arg10 : Memref sig .tc .vmem S16x64x1024 .f32)
    (x0 : Vec Ideal S16x64x1024 .f32) (x1 : Vec Ideal S1024x1024 .bf16) (x2 : Vec Ideal S64x1024 .f32)
    (x3 : Vec Ideal S1024x1024 .bf16) (xs0 : Vec Ideal S16x64x1024 .f32)
    (L : List (View.Piece (Elt Ideal) S16x64x1024 .f32)) (hacc : ∀ y, View.canon L y = accG x0 x1 x2 x3 xs0 y)
    (t : ℕ) (ht : t < 16) (inb : ∀ a, (![t, 0, 0] : Fin 3 → ℕ) a + S1x64x1024.size a ≤ S16x64x1024.size a)
    (z : Fin 1) (b : Fin 64) (d : Fin 1024) :
    View.readCov arg10.view L (Rect.unit (s := S16x64x1024) ![t, 0, 0] S1x64x1024.size inb).toLoadRect (ix3 z b d)
      = xs0 (ix3 ⟨t, ht⟩ b d) + partB x0 x1 x2 x3 ⟨t, ht⟩ b d := by
  have h := congrFun (View.readCov_eq_canon' arg10.view L
    (Rect.unit (s := S16x64x1024) ![t, 0, 0] S1x64x1024.size inb).toLoadRect) (ix3 z b d)
  rw [h]
  show View.canon L ((Rect.unit (s := S16x64x1024) ![t, 0, 0] S1x64x1024.size inb).toLoadRect.idx (ix3 z b d)) = _
  rw [slab_idx t ht inb, hacc]
  rfl

/-- One store of the closing phase: the payload of row `t`, an `lnStep` on the row of `x` and on slab `t` of the
    accumulator re-read, is the per-entry function of the output block on slab `t`. -/
private theorem ln_piece (arg2 : Memref sig .tc .vmem S16x64x1024 .f32) (harg2 : arg2.IsWhole)
    (arg6 : Memref sig .tc .vmem S64x1024 .f32) (harg6 : arg6.IsWhole)
    (arg7 : Memref sig .tc .vmem S1024 .f32) (harg7 : arg7.IsWhole)
    (arg8 : Memref sig .tc .vmem S64x1024 .f32) (harg8 : arg8.IsWhole)
    (arg10 : Memref sig .tc .vmem S16x64x1024 .f32)
    (x0 : Vec Ideal S16x64x1024 .f32) (x1 : Vec Ideal S1024x1024 .bf16) (x2 : Vec Ideal S64x1024 .f32)
    (x3 : Vec Ideal S1024x1024 .bf16) (x4 : Vec Ideal S64x1024 .f32) (x5 : Vec Ideal S1024 .f32)
    (x6 : Vec Ideal S64x1024 .f32) (xs0 : Vec Ideal S16x64x1024 .f32)
    (L : List (View.Piece (Elt Ideal) S16x64x1024 .f32)) (hacc : ∀ y, View.canon L y = accG x0 x1 x2 x3 xs0 y)
    (t : ℕ) (ht : t < 16) (inb : ∀ a, (![t, 0, 0] : Fin 3 → ℕ) a + S1x64x1024.size a ≤ S16x64x1024.size a)
    (pay : Vec Ideal S1x64x1024 .f32)
    (hpay : pay = lnStep
      (k0_pay2 (View.readAt (Elt Ideal) arg6.view (Rect.unit ![0, 0] S64x1024.size inb_S64x1024_S64x1024_0_0).toLoadRect (harg6.unread x4)))
      (k0_pay3 (View.readAt (Elt Ideal) arg8.view (Rect.unit ![0, 0] S64x1024.size inb_S64x1024_S64x1024_0_0).toLoadRect (harg8.unread x6)))
      (View.readAt (Elt Ideal) arg7.view (Rect.unit ![0] S1024.size inb_S1024_S1024_0).toLoadRect (harg7.unread x5))
      (View.readAt (Elt Ideal) arg2.view (Rect.unit (s := S16x64x1024) ![t, 0, 0] S1x64x1024.size inb).toLoadRect (harg2.unread x0))
      (View.readCov arg10.view L (Rect.unit (s := S16x64x1024) ![t, 0, 0] S1x64x1024.size inb).toLoadRect))
    (x : S1x64x1024.Idx) :
    pay x = outG x0 x1 x2 x3 x4 x5 x6 xs0 ((Rect.unit (s := S16x64x1024) ![t, 0, 0] S1x64x1024.size inb).emb x) := by
  subst hpay
  obtain ⟨z, b, d, rfl⟩ : ∃ (z : Fin 1) (b : Fin 64) (d : Fin 1024), x = ix3 z b d := ⟨x 0, x 1, x 2, eq_ix3 x⟩
  rw [slab_emb t ht inb, b2_eq, lnb_eq, lnw_eq, lnStep_apply]
  have hrow : (fun d' : Fin 1024 =>
      (View.readCov arg10.view L (Rect.unit (s := S16x64x1024) ![t, 0, 0] S1x64x1024.size inb).toLoadRect (ix3 z b d')
        + View.readAt (Elt Ideal) arg2.view
            (Rect.unit (s := S16x64x1024) ![t, 0, 0] S1x64x1024.size inb).toLoadRect (harg2.unread x0) (ix3 z b d'))
        + x4 (ix2 b d'))
      = fun d' => ((xs0 (ix3 ⟨t, ht⟩ b d') + partB x0 x1 x2 x3 ⟨t, ht⟩ b d') + x0 (ix3 ⟨t, ht⟩ b d')) + x4 (ix2 b d') := by
    funext d'
    rw [readCov_slab arg10 x0 x1 x2 x3 xs0 L hacc t ht inb, readAt_unread, slab_idx t ht inb]
  rw [hrow]
  rfl

/-- The last hidden block: the accumulator, updated as at a middle block. -/
theorem sout_C_apply (hc0 : ¬cond0_0 i) (hc1 : cond0_1 i) (x0 : Vec Ideal S16x64x1024 .f32) (x1 : Vec Ideal S1024x1024 .bf16) (x2 : Vec Ideal S64x1024 .f32) (x3 : Vec Ideal S1024x1024 .bf16) (x4 : Vec Ideal S64x1024 .f32) (x5 : Vec Ideal S1024 .f32) (x6 : Vec Ideal S64x1024 .f32) (xs0 : Vec Ideal S16x64x1024 .f32) (t : Fin 16) (b : Fin 64) (d : Fin 1024) :
    sout0_C_0 (F := Ideal) c i arg2 harg2 arg3 harg3 arg4 harg4 arg5 harg5 arg6 harg6 arg7 harg7 arg8 harg8 arg9 harg9 arg10 harg10 hc0 hc1 x0 x1 x2 x3 x4 x5 x6 xs0 (ix3 t b d)
      = xs0 (ix3 t b d) + partB x0 x1 x2 x3 t b d := by
  unfold sout0_C_0
  rw [View.read_writes_junk_eq_canon]
  have hcov : ∀ y : S16x64x1024.Idx, ∃ p ∈ kernelRun0_C.sl.HS0_16 (F := Ideal) c arg2 harg2 arg3 harg3 arg4 harg4 arg5 harg5 arg10 harg10 x0 x1 x2 x3 xs0, y ∈ p.1.set := by
    intro y
    have h := scover0_C_0 (F := Ideal) c i arg2 harg2 arg3 harg3 arg4 harg4 arg5 harg5 arg6 harg6 arg7 harg7 arg8 harg8 arg9 harg9 arg10 harg10 hc0 hc1 x0 x1 x2 x3 x4 x5 x6 xs0 y
    unfold kernelRun0_C at h
    exact h
  unfold kernelRun0_C
  dsimp only
  exact (accC_canon c arg2 harg2 arg3 harg3 arg4 harg4 arg5 harg5 arg10 harg10 x0 x1 x2 x3 xs0 hcov (ix3 t b d)).trans rfl

/-- The last hidden block: the output block, each row the normalisation of `(accumulator + x) + b2`. -/
theorem out_C_apply (hc0 : ¬cond0_0 i) (hc1 : cond0_1 i) (x0 : Vec Ideal S16x64x1024 .f32) (x1 : Vec Ideal S1024x1024 .bf16) (x2 : Vec Ideal S64x1024 .f32) (x3 : Vec Ideal S1024x1024 .bf16) (x4 : Vec Ideal S64x1024 .f32) (x5 : Vec Ideal S1024 .f32) (x6 : Vec Ideal S64x1024 .f32) (xs0 : Vec Ideal S16x64x1024 .f32) (t : Fin 16) (b : Fin 64) (d : Fin 1024) :
    out0_C_7 (F := Ideal) c i arg2 harg2 arg3 harg3 arg4 harg4 arg5 harg5 arg6 harg6 arg7 harg7 arg8 harg8 arg9 harg9 arg10 harg10 hc0 hc1 x0 x1 x2 x3 x4 x5 x6 xs0 (ix3 t b d)
      = Cert.Spec.lnRow (fun d' => ((xs0 (ix3 t b d') + partB x0 x1 x2 x3 t b d') + x0 (ix3 t b d')) + x4 (ix2 b d'))
          (fun d' => x5 (ix1 d')) (fun d' => x6 (ix2 b d')) d := by
  unfold out0_C_7
  rw [View.read_writes_junk_eq_canon]
  have hcover := cover0_C_7 (F := Ideal) c i arg2 harg2 arg3 harg3 arg4 harg4 arg5 harg5 arg6 harg6 arg7 harg7 arg8 harg8 arg9 harg9 arg10 harg10 hc0 hc1 x0 x1 x2 x3 x4 x5 x6 xs0 (ix3 t b d)
  have hcov : ∀ y : S16x64x1024.Idx, ∃ p ∈ kernelRun0_C.sl.HS0_16 (F := Ideal) c arg2 harg2 arg3 harg3 arg4 harg4 arg5 harg5 arg10 harg10 x0 x1 x2 x3 xs0, y ∈ p.1.set := by
    intro y
    have h := scover0_C_0 (F := Ideal) c i arg2 harg2 arg3 harg3 arg4 harg4 arg5 harg5 arg6 harg6 arg7 harg7 arg8 harg8 arg9 harg9 arg10 harg10 hc0 hc1 x0 x1 x2 x3 x4 x5 x6 xs0 y
    unfold kernelRun0_C at h
    exact h
  have hacc := accC_canon c arg2 harg2 arg3 harg3 arg4 harg4 arg5 harg5 arg10 harg10 x0 x1 x2 x3 xs0 hcov
  refine (View.canon_apply_of_pieces (outG x0 x1 x2 x3 x4 x5 x6 xs0) _ ?_ (ix3 t b d) hcover).trans rfl
  unfold kernelRun0_C
  dsimp only
  intro p hp
  simp only [List.mem_cons, List.not_mem_nil, or_false] at hp
  rcases hp with rfl | rfl | rfl | rfl | rfl | rfl | rfl | rfl | rfl | rfl | rfl | rfl | rfl | rfl | rfl | rfl
  · exact ln_piece arg2 harg2 arg6 harg6 arg7 harg7 arg8 harg8 arg10 x0 x1 x2 x3 x4 x5 x6 xs0 _ hacc 15 (by omega) _ _ (Pays.ln15 _ _ _ _ _)
  · exact ln_piece arg2 harg2 arg6 harg6 arg7 harg7 arg8 harg8 arg10 x0 x1 x2 x3 x4 x5 x6 xs0 _ hacc 14 (by omega) _ _ (Pays.ln14 _ _ _ _ _)
  · exact ln_piece arg2 harg2 arg6 harg6 arg7 harg7 arg8 harg8 arg10 x0 x1 x2 x3 x4 x5 x6 xs0 _ hacc 13 (by omega) _ _ (Pays.ln13 _ _ _ _ _)
  · exact ln_piece arg2 harg2 arg6 harg6 arg7 harg7 arg8 harg8 arg10 x0 x1 x2 x3 x4 x5 x6 xs0 _ hacc 12 (by omega) _ _ (Pays.ln12 _ _ _ _ _)
  · exact ln_piece arg2 harg2 arg6 harg6 arg7 harg7 arg8 harg8 arg10 x0 x1 x2 x3 x4 x5 x6 xs0 _ hacc 11 (by omega) _ _ (Pays.ln11 _ _ _ _ _)
  · exact ln_piece arg2 harg2 arg6 harg6 arg7 harg7 arg8 harg8 arg10 x0 x1 x2 x3 x4 x5 x6 xs0 _ hacc 10 (by omega) _ _ (Pays.ln10 _ _ _ _ _)
  · exact ln_piece arg2 harg2 arg6 harg6 arg7 harg7 arg8 harg8 arg10 x0 x1 x2 x3 x4 x5 x6 xs0 _ hacc 9 (by omega) _ _ (Pays.ln9 _ _ _ _ _)
  · exact ln_piece arg2 harg2 arg6 harg6 arg7 harg7 arg8 harg8 arg10 x0 x1 x2 x3 x4 x5 x6 xs0 _ hacc 8 (by omega) _ _ (Pays.ln8 _ _ _ _ _)
  · exact ln_piece arg2 harg2 arg6 harg6 arg7 harg7 arg8 harg8 arg10 x0 x1 x2 x3 x4 x5 x6 xs0 _ hacc 7 (by omega) _ _ (Pays.ln7 _ _ _ _ _)
  · exact ln_piece arg2 harg2 arg6 harg6 arg7 harg7 arg8 harg8 arg10 x0 x1 x2 x3 x4 x5 x6 xs0 _ hacc 6 (by omega) _ _ (Pays.ln6 _ _ _ _ _)
  · exact ln_piece arg2 harg2 arg6 harg6 arg7 harg7 arg8 harg8 arg10 x0 x1 x2 x3 x4 x5 x6 xs0 _ hacc 5 (by omega) _ _ (Pays.ln5 _ _ _ _ _)
  · exact ln_piece arg2 harg2 arg6 harg6 arg7 harg7 arg8 harg8 arg10 x0 x1 x2 x3 x4 x5 x6 xs0 _ hacc 4 (by omega) _ _ (Pays.ln4 _ _ _ _ _)
  · exact ln_piece arg2 harg2 arg6 harg6 arg7 harg7 arg8 harg8 arg10 x0 x1 x2 x3 x4 x5 x6 xs0 _ hacc 3 (by omega) _ _ (Pays.ln3 _ _ _ _ _)
  · exact ln_piece arg2 harg2 arg6 harg6 arg7 harg7 arg8 harg8 arg10 x0 x1 x2 x3 x4 x5 x6 xs0 _ hacc 2 (by omega) _ _ (Pays.ln2 _ _ _ _ _)
  · exact ln_piece arg2 harg2 arg6 harg6 arg7 harg7 arg8 harg8 arg10 x0 x1 x2 x3 x4 x5 x6 xs0 _ hacc 1 (by omega) _ _ (Pays.ln1 _ _ _ _ _)
  · exact ln_piece arg2 harg2 arg6 harg6 arg7 harg7 arg8 harg8 arg10 x0 x1 x2 x3 x4 x5 x6 xs0 _ hacc 0 (by omega) _ _ (Pays.ln0 _ _ _ _ _)

end Cert.KernelIdeal.Slabs

end
-- ==== Proof.Fold.lean ====
/-
  The accumulator after each grid point.

  S-tile `si` is worked at the four consecutive points `4 si … 4 si + 3`, one hidden block each.  The first zero-fills
  the accumulator and adds block 0's contribution; each later one adds its block's contribution to what the point
  before left.  So after point `4 si + hi` entry `(t', b, d)` holds the sum, from zero and in block order, of the
  contributions of blocks `0 … hi` to row `16 si + t'` (`Cert.Spec.accUpTo`).
-/
import proofs.«159844_j11184094839027_1_alg».proof.Proof.Gen.KernelIdeal.Frame
import proofs.«159844_j11184094839027_1_alg».proof.Proof.Blocks
import proofs.«159844_j11184094839027_1_alg».proof.Proof.SlabsA
import proofs.«159844_j11184094839027_1_alg».proof.Proof.SlabsBC

noncomputable section

namespace Cert.KernelIdeal.Fold

open Cert.KernelIdeal Cert.KernelIdeal.Gen Idealize.ShloMosaic Idealize.ShloMosaic.TcCoe Idealize.SL.Sem Idealize.ShloMosaic.ValueIdx
open Cert.KernelIdeal.Slabs Cert.KernelIdeal.Blocks

variable (m : (ℓ : Loc nD τ sig) → Buf (Elt Ideal) ℓ)

/-- The contents after a point do not depend on how the point's number is written. -/
theorem outsAt0_congr (c : Dev nD) {n n' : ℕ} (e : n = n') (hn : n < cfg0.N) (hn' : n' < cfg0.N) :
    outsAt0 m c n hn = outsAt0 m c n' hn' := by
  subst e; rfl

/-- The first hidden block of an S-tile: zero plus block 0's contribution. -/
theorem step_A (c : Dev nD) (si : ℕ) (hn : 4 * si + 0 < cfg0.N) (t' : Fin 16) (b : Fin 64) (d : Fin 1024)
    (hs : 16 * si + t'.val < 512) :
    (outsAt0 m c (4 * si + 0) hn).2 (ix3 t' b d)
      = 0 + Cert.Spec.part (xrow m c si t' b hs) (W1f m c) (b1row m c b) (W2f m c) ⟨0, by omega⟩ d := by
  have h0 : (⟨4 * si + 0, hn⟩ : Fin cfg0.N).val % 4 = 0 := by dsimp only; omega
  have h1 : ¬(⟨4 * si + 0, hn⟩ : Fin cfg0.N).val % 4 = 3 := by dsimp only; omega
  rw [outsAt0_A m c ⟨4 * si + 0, hn⟩ h0 h1]
  dsimp only
  refine (sout_A_apply c (grid0.coords ⟨4 * si + 0, hn⟩) (ms0_0 ⟨4 * si + 0, hn⟩) (hs0_0 ⟨4 * si + 0, hn⟩) (ms0_1 ⟨4 * si + 0, hn⟩) (hs0_1 ⟨4 * si + 0, hn⟩) (ms0_2 ⟨4 * si + 0, hn⟩) (hs0_2 ⟨4 * si + 0, hn⟩) (ms0_3 ⟨4 * si + 0, hn⟩) (hs0_3 ⟨4 * si + 0, hn⟩) (ms0_4 ⟨4 * si + 0, hn⟩) (hs0_4 ⟨4 * si + 0, hn⟩) (ms0_5 ⟨4 * si + 0, hn⟩) (hs0_5 ⟨4 * si + 0, hn⟩) (ms0_6 ⟨4 * si + 0, hn⟩) (hs0_6 ⟨4 * si + 0, hn⟩) (ms0_7 ⟨4 * si + 0, hn⟩) (hs0_7 ⟨4 * si + 0, hn⟩) scM0_0 (Memref.isWhole_whole _) ((hcond0_0 ⟨4 * si + 0, hn⟩).mpr h0) (fun h => h1 ((hcond0_1 ⟨4 * si + 0, hn⟩).mp h)) (xblk m c ⟨4 * si + 0, hn⟩) (w1blk m c ⟨4 * si + 0, hn⟩) (b1blk m c ⟨4 * si + 0, hn⟩) (w2blk m c ⟨4 * si + 0, hn⟩) (b2blk m c ⟨4 * si + 0, hn⟩) (lnwblk m c ⟨4 * si + 0, hn⟩) (lnbblk m c ⟨4 * si + 0, hn⟩) t' b d).trans ?_
  rw [partB_blocks m c ⟨4 * si + 0, hn⟩ si 0 rfl (by omega) t' b d hs]

/-- A middle hidden block: the point before's entry plus this block's contribution. -/
theorem step_B (c : Dev nD) (si hi : ℕ) (hhi : hi + 1 < 4) (hne : hi + 1 ≠ 3) (hn : 4 * si + (hi + 1) < cfg0.N)
    (hn' : 4 * si + hi < cfg0.N) (t' : Fin 16) (b : Fin 64) (d : Fin 1024) (hs : 16 * si + t'.val < 512) :
    (outsAt0 m c (4 * si + (hi + 1)) hn).2 (ix3 t' b d)
      = (outsAt0 m c (4 * si + hi) hn').2 (ix3 t' b d)
        + Cert.Spec.part (xrow m c si t' b hs) (W1f m c) (b1row m c b) (W2f m c) ⟨hi + 1, hhi⟩ d := by
  have h0 : ¬(⟨4 * si + (hi + 1), hn⟩ : Fin cfg0.N).val % 4 = 0 := by dsimp only; omega
  have h1 : ¬(⟨4 * si + (hi + 1), hn⟩ : Fin cfg0.N).val % 4 = 3 := by dsimp only; omega
  rw [outsAt0_B m c ⟨4 * si + (hi + 1), hn⟩ h0 h1]
  dsimp only
  refine (sout_B_apply c (grid0.coords ⟨4 * si + (hi + 1), hn⟩) (ms0_0 ⟨4 * si + (hi + 1), hn⟩) (hs0_0 ⟨4 * si + (hi + 1), hn⟩) (ms0_1 ⟨4 * si + (hi + 1), hn⟩) (hs0_1 ⟨4 * si + (hi + 1), hn⟩) (ms0_2 ⟨4 * si + (hi + 1), hn⟩) (hs0_2 ⟨4 * si + (hi + 1), hn⟩) (ms0_3 ⟨4 * si + (hi + 1), hn⟩) (hs0_3 ⟨4 * si + (hi + 1), hn⟩) (ms0_4 ⟨4 * si + (hi + 1), hn⟩) (hs0_4 ⟨4 * si + (hi + 1), hn⟩) (ms0_5 ⟨4 * si + (hi + 1), hn⟩) (hs0_5 ⟨4 * si + (hi + 1), hn⟩) (ms0_6 ⟨4 * si + (hi + 1), hn⟩) (hs0_6 ⟨4 * si + (hi + 1), hn⟩) (ms0_7 ⟨4 * si + (hi + 1), hn⟩) (hs0_7 ⟨4 * si + (hi + 1), hn⟩) scM0_0 (Memref.isWhole_whole _) (fun h => h0 ((hcond0_0 ⟨4 * si + (hi + 1), hn⟩).mp h)) (fun h => h1 ((hcond0_1 ⟨4 * si + (hi + 1), hn⟩).mp h)) (xblk m c ⟨4 * si + (hi + 1), hn⟩) (w1blk m c ⟨4 * si + (hi + 1), hn⟩) (b1blk m c ⟨4 * si + (hi + 1), hn⟩) (w2blk m c ⟨4 * si + (hi + 1), hn⟩) (b2blk m c ⟨4 * si + (hi + 1), hn⟩) (lnwblk m c ⟨4 * si + (hi + 1), hn⟩) (lnbblk m c ⟨4 * si + (hi + 1), hn⟩) (outsAt0 m c (4 * si + (hi + 1) - 1) (Nat.lt_of_le_of_lt (Nat.sub_le _ _) hn)).2 t' b d).trans ?_
  rw [partB_blocks m c ⟨4 * si + (hi + 1), hn⟩ si (hi + 1) rfl hhi t' b d hs,
    outsAt0_congr m c (show 4 * si + (hi + 1) - 1 = 4 * si + hi by omega) _ hn']

/-- The last hidden block: the same update of the accumulator. -/
theorem step_C (c : Dev nD) (si : ℕ) (hn : 4 * si + 3 < cfg0.N)
    (hn' : 4 * si + 2 < cfg0.N) (t' : Fin 16) (b : Fin 64) (d : Fin 1024) (hs : 16 * si + t'.val < 512) :
    (outsAt0 m c (4 * si + 3) hn).2 (ix3 t' b d)
      = (outsAt0 m c (4 * si + 2) hn').2 (ix3 t' b d)
        + Cert.Spec.part (xrow m c si t' b hs) (W1f m c) (b1row m c b) (W2f m c) ⟨3, by omega⟩ d := by
  have h0 : ¬(⟨4 * si + 3, hn⟩ : Fin cfg0.N).val % 4 = 0 := by dsimp only; omega
  have h1 : (⟨4 * si + 3, hn⟩ : Fin cfg0.N).val % 4 = 3 := by dsimp only; omega
  rw [outsAt0_C m c ⟨4 * si + 3, hn⟩ h0 h1]
  dsimp only
  refine (sout_C_apply c (grid0.coords ⟨4 * si + 3, hn⟩) (ms0_0 ⟨4 * si + 3, hn⟩) (hs0_0 ⟨4 * si + 3, hn⟩) (ms0_1 ⟨4 * si + 3, hn⟩) (hs0_1 ⟨4 * si + 3, hn⟩) (ms0_2 ⟨4 * si + 3, hn⟩) (hs0_2 ⟨4 * si + 3, hn⟩) (ms0_3 ⟨4 * si + 3, hn⟩) (hs0_3 ⟨4 * si + 3, hn⟩) (ms0_4 ⟨4 * si + 3, hn⟩) (hs0_4 ⟨4 * si + 3, hn⟩) (ms0_5 ⟨4 * si + 3, hn⟩) (hs0_5 ⟨4 * si + 3, hn⟩) (ms0_6 ⟨4 * si + 3, hn⟩) (hs0_6 ⟨4 * si + 3, hn⟩) (ms0_7 ⟨4 * si + 3, hn⟩) (hs0_7 ⟨4 * si + 3, hn⟩) scM0_0 (Memref.isWhole_whole _) (fun h => h0 ((hcond0_0 ⟨4 * si + 3, hn⟩).mp h)) ((hcond0_1 ⟨4 * si + 3, hn⟩).mpr h1) (xblk m c ⟨4 * si + 3, hn⟩) (w1blk m c ⟨4 * si + 3, hn⟩) (b1blk m c ⟨4 * si + 3, hn⟩) (w2blk m c ⟨4 * si + 3, hn⟩) (b2blk m c ⟨4 * si + 3, hn⟩) (lnwblk m c ⟨4 * si + 3, hn⟩) (lnbblk m c ⟨4 * si + 3, hn⟩) (outsAt0 m c (4 * si + 3 - 1) (Nat.lt_of_le_of_lt (Nat.sub_le _ _) hn)).2 t' b d).trans ?_
  rw [partB_blocks m c ⟨4 * si + 3, hn⟩ si 3 rfl (by omega) t' b d hs,
    outsAt0_congr m c (show 4 * si + 3 - 1 = 4 * si + 2 by omega) _ hn']

/-- THE ACCUMULATOR after point `4 si + hi`: the contributions of hidden blocks `0 … hi`, summed from zero in block order. -/
theorem acc_after (c : Dev nD) (si : ℕ) (t' : Fin 16) (b : Fin 64) (d : Fin 1024) (hs : 16 * si + t'.val < 512) :
    ∀ (hi : ℕ) (hhi : hi < 4) (hn : 4 * si + hi < cfg0.N),
      (outsAt0 m c (4 * si + hi) hn).2 (ix3 t' b d)
        = Cert.Spec.accUpTo (xrow m c si t' b hs) (W1f m c) (b1row m c b) (W2f m c) hi d
  | 0, _, hn => step_A m c si hn t' b d hs
  | 1, _, hn => by
    have hN : cfg0.N = 128 := N_0
    rw [step_B m c si 0 (by omega) (by omega) hn (by omega) t' b d hs, acc_after c si t' b d hs 0 (by omega) (by omega)]
    rfl
  | 2, _, hn => by
    have hN : cfg0.N = 128 := N_0
    rw [step_B m c si 1 (by omega) (by omega) hn (by omega) t' b d hs, acc_after c si t' b d hs 1 (by omega) (by omega)]
    rfl
  | 3, _, hn => by
    have hN : cfg0.N = 128 := N_0
    rw [step_C m c si hn (by omega) t' b d hs, acc_after c si t' b d hs 2 (by omega) (by omega)]
    rfl
  | n + 4, hhi, _ => absurd hhi (by omega)

end Cert.KernelIdeal.Fold

end
-- ==== Proof.Final.lean ====
/-
  The kernel's result array.

  Only the points of the last hidden block (`t % 4 = 3`) write the output block back.  At such a point of S-tile
  `si` the body has the accumulator of blocks 0 … 2, adds block 3's contribution, the row of `x` and the gathered
  second bias — the row's pre-normalisation value `Cert.Spec.yKer` — and normalises it; so what the point writes back
  is block `si` of ONE function `GK` of the arrays.  The thirty-two blocks tile the array's first axis, so the array
  ends at `GK`.
-/
import proofs.«159844_j11184094839027_1_alg».proof.Proof.Gen.KernelIdeal.Value
import proofs.«159844_j11184094839027_1_alg».proof.Proof.Fold

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Slabs Cert.KernelIdeal.Blocks Cert.KernelIdeal.Fold

variable (m : (ℓ : Loc nD τ sig) → Buf (Elt Ideal) ℓ) (ρ : Dev nD → PrngReg)

/-- The kernel's result at `(s, b, d)`: row `(s, b)` of `x` through the blocked accumulation, then normalised. -/
def GKc (c : Dev nD) (s : Fin 512) (b : Fin 64) (d : Fin 1024) : EReal :=
  Cert.Spec.lnRow
    (fun d' => Cert.Spec.yKer (fun e => xarr m c (ix3 s b e)) (W1f m c) (b1row m c b) (W2f m c) (fun d'' => b2garr m c (ix2 b d'')) d')
    (fun d' => lnwarr m c (ix1 d')) (fun d' => lnbgarr m c (ix2 b d')) d

/-- The same as contents of the result array. -/
def GK (c : Dev nD) : Vec Ideal S512x64x1024 .f32 :=
  fun i => GKc m c ⟨(i 0).val, (i 0).isLt⟩ ⟨(i 1).val, (i 1).isLt⟩ ⟨(i 2).val, (i 2).isLt⟩

/-- The output block is written back exactly at the points of the last hidden block. -/
theorem flush7_iff : ∀ t : Fin cfg0.N, (cfg0.win 7).flush t = true ↔ t.val % 4 = 3 :=
  (by decide +kernel : ∀ t : Fin grid0.N, _)

/-- What the last point of S-tile `si` leaves in the output block, entry by entry. -/
theorem out_entry (c : Dev nD) (si : ℕ) (hn : 4 * si + 3 < cfg0.N) (t' : Fin 16) (b : Fin 64) (d : Fin 1024)
    (hs : 16 * si + t'.val < 512) :
    (outsAt0 m c (4 * si + 3) hn).1 (ix3 t' b d) = GKc m c ⟨16 * si + t'.val, hs⟩ b d := by
  have hN : cfg0.N = 128 := N_0
  have h0 : ¬(⟨4 * si + 3, hn⟩ : Fin cfg0.N).val % 4 = 0 := by dsimp only; omega
  have h1 : (⟨4 * si + 3, hn⟩ : Fin cfg0.N).val % 4 = 3 := by dsimp only; omega
  rw [outsAt0_C m c ⟨4 * si + 3, hn⟩ h0 h1]
  dsimp only
  refine (out_C_apply c (grid0.coords ⟨4 * si + 3, hn⟩) (ms0_0 ⟨4 * si + 3, hn⟩) (hs0_0 ⟨4 * si + 3, hn⟩) (ms0_1 ⟨4 * si + 3, hn⟩) (hs0_1 ⟨4 * si + 3, hn⟩) (ms0_2 ⟨4 * si + 3, hn⟩) (hs0_2 ⟨4 * si + 3, hn⟩) (ms0_3 ⟨4 * si + 3, hn⟩) (hs0_3 ⟨4 * si + 3, hn⟩) (ms0_4 ⟨4 * si + 3, hn⟩) (hs0_4 ⟨4 * si + 3, hn⟩) (ms0_5 ⟨4 * si + 3, hn⟩) (hs0_5 ⟨4 * si + 3, hn⟩) (ms0_6 ⟨4 * si + 3, hn⟩) (hs0_6 ⟨4 * si + 3, hn⟩) (ms0_7 ⟨4 * si + 3, hn⟩) (hs0_7 ⟨4 * si + 3, hn⟩) scM0_0 (Memref.isWhole_whole _) (fun h => h0 ((hcond0_0 ⟨4 * si + 3, hn⟩).mp h)) ((hcond0_1 ⟨4 * si + 3, hn⟩).mpr h1) (xblk m c ⟨4 * si + 3, hn⟩) (w1blk m c ⟨4 * si + 3, hn⟩) (b1blk m c ⟨4 * si + 3, hn⟩) (w2blk m c ⟨4 * si + 3, hn⟩) (b2blk m c ⟨4 * si + 3, hn⟩) (lnwblk m c ⟨4 * si + 3, hn⟩) (lnbblk m c ⟨4 * si + 3, hn⟩) (outsAt0 m c (4 * si + 3 - 1) (Nat.lt_of_le_of_lt (Nat.sub_le _ _) hn)).2 t' b d).trans ?_
  unfold GKc
  have hy : (fun d' => (((outsAt0 m c (4 * si + 3 - 1) (Nat.lt_of_le_of_lt (Nat.sub_le _ _) hn)).2 (ix3 t' b d')
        + partB (xblk m c ⟨4 * si + 3, hn⟩) (w1blk m c ⟨4 * si + 3, hn⟩) (b1blk m c ⟨4 * si + 3, hn⟩) (w2blk m c ⟨4 * si + 3, hn⟩) t' b d')
        + xblk m c ⟨4 * si + 3, hn⟩ (ix3 t' b d')) + b2blk m c ⟨4 * si + 3, hn⟩ (ix2 b d'))
      = fun d' => Cert.Spec.yKer (fun e => xarr m c (ix3 ⟨16 * si + t'.val, hs⟩ b e)) (W1f m c) (b1row m c b) (W2f m c) (fun d'' => b2garr m c (ix2 b d'')) d' := by
    funext d'
    rw [outsAt0_congr m c (show 4 * si + 3 - 1 = 4 * si + 2 by omega) _ (by omega),
      acc_after m c si t' b d' hs 2 (by omega) (by omega),
      partB_blocks m c ⟨4 * si + 3, hn⟩ si 3 rfl (by omega) t' b d' hs,
      xblk_apply m c ⟨4 * si + 3, hn⟩ si 3 rfl (by omega) t' b d' hs,
      b2blk_apply m c ⟨4 * si + 3, hn⟩ b d', Cert.Spec.yKer_eq_acc]
    rfl
  have hw : (fun d' => lnwblk m c ⟨4 * si + 3, hn⟩ (ix1 d')) = fun d' => lnwarr m c (ix1 d') :=
    funext fun d' => lnwblk_apply m c ⟨4 * si + 3, hn⟩ d'
  have hl : (fun d' => lnbblk m c ⟨4 * si + 3, hn⟩ (ix2 b d')) = fun d' => lnbgarr m c (ix2 b d') :=
    funext fun d' => lnbblk_apply m c ⟨4 * si + 3, hn⟩ b d'
  rw [hy, hw, hl]

/-- WHAT A FLUSHING POINT WRITES BACK is its block of `GK`. -/
theorem flushed_eq (c : Dev nD) (t : Fin cfg0.N) (hf : (cfg0.win 7).flush t = true) :
    (dats m 0 c).flushed 7 t = ((cfg0.win 7).blk t).view.read (Elt Ideal) (GK m c) := by
  have h3 : t.val % 4 = 3 := (flush7_iff t).mp hf
  have hN : cfg0.N = 128 := N_0
  have htl : t.val < 128 := lt_of_lt_of_eq t.isLt hN
  obtain ⟨-, -, -, -, -, -, -, -, -, -, -, -, -, -, e0, e1, e2⟩ := idx_facts t
  rw [Cert.KernelIdeal.Value.flushed7 m c t]
  funext y
  rw [View.read_apply]
  show (outsAt0 m c t.val t.isLt).1 y = GK m c (((cfg0.win 7).blk t).view.emb y)
  obtain ⟨t', b, d, rfl⟩ : ∃ (t' : Fin 16) (b : Fin 64) (d : Fin 1024), y = ix3 t' b d := ⟨y 0, y 1, y 2, eq_ix3 y⟩
  have hsi : t.val = 4 * (t.val / 4) + 3 := by omega
  have hs : 16 * (t.val / 4) + t'.val < 512 := by have := t'.isLt; omega
  rw [outsAt0_congr m c hsi t.isLt (by omega), out_entry m c (t.val / 4) (by omega) t' b d hs]
  unfold GK
  congr 1 <;> apply Fin.ext
  · show 16 * (t.val / 4) + t'.val = win0_7.index t (0 : Fin 3) * 16 + 1 * t'.val; omega
  · show b.val = win0_7.index t (1 : Fin 3) * 64 + 1 * b.val; omega
  · show d.val = win0_7.index t (2 : Fin 3) * 1024 + 1 * d.val; omega

/-- An index of the array is in point `t`'s block iff each coordinate is in the block's range on its axis. -/
theorem mem_blk7 (t : Fin cfg0.N) (i : S512x64x1024.Idx) :
    i ∈ ((cfg0.win 7).blk t).view.set ↔ ∀ a : Fin 3, win0_7.index t a * S16x64x1024.size a ≤ (i a).val ∧ (i a).val < win0_7.index t a * S16x64x1024.size a + S16x64x1024.size a := by
  show i ∈ ((View.whole main_v25).slice (win0_7.rect t)).set ↔ _
  rw [View.set_slice_whole, Rect.mem_set_unit]
  exact Iff.rfl

/-- Every index of the array is in the block of the last point of its S-tile. -/
theorem cover7 (i : S512x64x1024.Idx) :
    ∃ t : Fin cfg0.N, (cfg0.win 7).flush t = true ∧ i ∈ ((cfg0.win 7).blk t).view.set := by
  have hN : cfg0.N = 128 := N_0
  have h0 : (i 0).val < 512 := (i 0).isLt
  have h1 : (i 1).val < 64 := (i 1).isLt
  have h2 : (i 2).val < 1024 := (i 2).isLt
  have hlt : 4 * ((i 0).val / 16) + 3 < cfg0.N := by omega
  refine ⟨⟨4 * ((i 0).val / 16) + 3, hlt⟩, (flush7_iff _).mpr (by dsimp only; omega), ?_⟩
  rw [mem_blk7]
  obtain ⟨-, -, -, -, -, -, -, -, -, -, -, -, -, -, e0, e1, e2⟩ := idx_facts ⟨4 * ((i 0).val / 16) + 3, hlt⟩
  dsimp only at e0
  intro a
  match a with
  | ⟨0, _⟩ => show win0_7.index _ (0 : Fin 3) * 16 ≤ (i 0).val ∧ (i 0).val < win0_7.index _ (0 : Fin 3) * 16 + 16; omega
  | ⟨1, _⟩ => show win0_7.index _ (1 : Fin 3) * 64 ≤ (i 1).val ∧ (i 1).val < win0_7.index _ (1 : Fin 3) * 64 + 64; omega
  | ⟨2, _⟩ => show win0_7.index _ (2 : Fin 3) * 1024 ≤ (i 2).val ∧ (i 2).val < win0_7.index _ (2 : Fin 3) * 1024 + 1024; omega

/-- THE RESULT ARRAY after the run. -/
theorem final (c : Dev nD) : (dats m 0 c).arrAt 7 cfg0.N = GK m c :=
  (dats m 0 c).arrAt_eq_of_cover 7 (GK m c) (flushed_eq m c) cover7

/-- The run, read: the result array at `GK`, the arguments unchanged. -/
theorem run : θ_run defs (onTc (τ := τ) (main (F := Ideal))) ⟨m, fun _ => 0, ρ⟩ fun r => ∀ c : Dev nD,
      r.2.mem ((c : Thread nD τ).loc main_v25) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Final

end
-- ==== Proof.Bridge.lean ====
/-
  The arrays the region finds, in terms of the program's arguments.

  Before the region the host transposes the two weight matrices (and changes their float format, which is the identity
  over the extended reals) and gathers the three per-task tables at `task_id`.  The transposed arrays are read back at
  an index; the gathered ones are the reference's own stages 6, 13 and 20 of the same arguments — the two programs
  gather with the same operations —, so they are never opened.
-/
import proofs.«159844_j11184094839027_1_alg».proof.Proof.Gen.KernelIdeal.Frame
import proofs.«159844_j11184094839027_1_alg».proof.Proof.Gen.ReferenceIdeal.Read
import proofs.«159844_j11184094839027_1_alg».proof.Proof.Blocks
import Idealize.ShloMosaic.Lib.ValueLayout
import Idealize.ShloMosaic.Lib.StableHlo.Run

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.StableHlo
open Cert.KernelIdeal.Blocks

variable (m : (ℓ : Loc nD τ sig) → Buf (Elt Ideal) ℓ)

set_option maxHeartbeats 4000000 in
/-- The first weights the region finds are `W1` transposed: entry `(e, h)` is `W1 (h, e)`. -/
theorem w1tarr_apply (c : Dev nD) (e : Fin 1024) (h : Fin 4096) :
    w1tarr m c (ix2 e h) = (m ((c : Thread nD τ).loc main_arg2) : Vec Ideal S4096x1024 .f32) (ix2 h e) := by
  have ev : @Eq (Vec Ideal S1024x4096 .bf16) (V m c main_v22)
      (truncf (F := Ideal) .bf16 (transpose S1024x4096 [1, 0] (m ((c : Thread nD τ).loc main_arg2) : Vec Ideal S4096x1024 .f32) transposes_S4096x1024_S1024x4096_1_0) bitsLt_bf16_f32) := by
    dsimp only [V, hostOps0]; after_results
  show (V m c main_v22 : Vec Ideal S1024x4096 .bf16) (ix2 e h) = _
  rw [ev]
  exact transpose_ix2_apply (m ((c : Thread nD τ).loc main_arg2) : Vec Ideal S4096x1024 .f32) transposes_S4096x1024_S1024x4096_1_0 e h

set_option maxHeartbeats 4000000 in
/-- The second weights the region finds are `W2` transposed: entry `(h, d)` is `W2 (d, h)`. -/
theorem w2tarr_apply (c : Dev nD) (h : Fin 4096) (d : Fin 1024) :
    w2tarr m c (ix2 h d) = (m ((c : Thread nD τ).loc main_arg4) : Vec Ideal S1024x4096 .f32) (ix2 d h) := by
  have ev : @Eq (Vec Ideal S4096x1024 .bf16) (V m c main_v24)
      (truncf (F := Ideal) .bf16 (transpose S4096x1024 [1, 0] (m ((c : Thread nD τ).loc main_arg4) : Vec Ideal S1024x4096 .f32) transposes_S1024x4096_S4096x1024_1_0) bitsLt_bf16_f32) := by
    dsimp only [V, hostOps0]; after_results
  show (V m c main_v24 : Vec Ideal S4096x1024 .bf16) (ix2 h d) = _
  rw [ev]
  exact transpose_ix2_apply (m ((c : Thread nD τ).loc main_arg4) : Vec Ideal S1024x4096 .f32) transposes_S1024x4096_S4096x1024_1_0 h d

/-- `x` and the scale reach the region as launched. -/
theorem xarr_eq (c : Dev nD) : xarr m c = m ((c : Thread nD τ).loc main_arg1) := V_main_arg1 m c
theorem lnwarr_eq (c : Dev nD) : lnwarr m c = m ((c : Thread nD τ).loc main_arg6) := V_main_arg6 m c

set_option maxHeartbeats 4000000 in
/-- The gathered first bias is the reference's stage 6 of the same arguments. -/
theorem b1garr_eq (c : Dev nD) :
    b1garr m c = Cert.ReferenceIdeal.Read.val_main_v6 (F := Ideal) (m ((c : Thread nD τ).loc main_arg0)) (m ((c : Thread nD τ).loc main_arg3)) := by
  show @Eq (Vec Ideal S64x4096 .f32) (V m c main_v6) _
  dsimp only [V, hostOps0]; after_results; rfl

set_option maxHeartbeats 4000000 in
/-- The gathered second bias is the reference's stage 13 of the same arguments. -/
theorem b2garr_eq (c : Dev nD) :
    b2garr m c = Cert.ReferenceIdeal.Read.val_main_v13 (F := Ideal) (m ((c : Thread nD τ).loc main_arg0)) (m ((c : Thread nD τ).loc main_arg5)) := by
  show @Eq (Vec Ideal S64x1024 .f32) (V m c main_v13) _
  dsimp only [V, hostOps0]; after_results; rfl

set_option maxHeartbeats 4000000 in
/-- The gathered shift is the reference's stage 20 of the same arguments. -/
theorem lnbgarr_eq (c : Dev nD) :
    lnbgarr m c = Cert.ReferenceIdeal.Read.val_main_v20 (F := Ideal) (m ((c : Thread nD τ).loc main_arg0)) (m ((c : Thread nD τ).loc main_arg7)) := by
  show @Eq (Vec Ideal S64x1024 .f32) (V m c main_v20) _
  dsimp only [V, hostOps0]; after_results; rfl

end Cert.KernelIdeal.Bridge

end
-- ==== Proof.RefValue.lean ====
/-
  The reference, entry by entry, over the extended reals.

  The host program gathers the three per-task tables at `task_id` (stages 6, 13 and 20: kept as they are, the kernel's
  program gathers them with the same operations), contracts `x` with `W1` over the feature axis, adds the gathered
  bias and clamps at zero, contracts the result with `W2` over the hidden axis, adds the residual and the second bias
  (`Cert.Spec.yRef`), and normalises each row (`Cert.Spec.lnRow`): the two row sums start from the literal zero, the
  divisions are by the literal 1024.0, and the host's reciprocal square root is the extended reals' own.
-/
import proofs.«159844_j11184094839027_1_alg».proof.Proof.Gen.ReferenceIdeal.Read
import proofs.«159844_j11184094839027_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## Where the layout operations and the contractions read: the composed index maps at `(s, b, ·)` -/

/-- The first contraction reads row `(s, b)` of `x` along the feature axis. -/
private theorem lidx21 (s : Fin 512) (b : Fin 64) (h : Fin 4096) (e : Fin 1024) :
    lidx_main_v21 (ix3 s b h) e = ix3 s b e :=
  funext fun a => Fin.ext (by match a with | ⟨0, _⟩ => rfl | ⟨1, _⟩ => rfl | ⟨2, _⟩ => rfl)
/-- … against row `h` of `W1`. -/
private theorem ridx21 (s : Fin 512) (b : Fin 64) (h : Fin 4096) (e : Fin 1024) :
    ridx_main_v21 (ix3 s b h) e = ix2 h e :=
  funext fun a => Fin.ext (by match a with | ⟨0, _⟩ => rfl | ⟨1, _⟩ => rfl)
/-- The first bias, broadcast over `s`, is read at `(b, h)`. -/
private theorem idx2223 (s : Fin 512) (b : Fin 64) (h : Fin 4096) :
    idx_main_v22 (idx_main_v23 (ix3 s b h)) = ix2 b h :=
  funext fun a => Fin.ext (by match a with | ⟨0, _⟩ => rfl | ⟨1, _⟩ => rfl)
/-- The second contraction reads row `(s, b)` of the activations along the hidden axis. -/
private theorem lidx26 (s : Fin 512) (b : Fin 64) (d : Fin 1024) (h : Fin 4096) :
    lidx_main_v26 (ix3 s b d) h = ix3 s b h :=
  funext fun a => Fin.ext (by match a with | ⟨0, _⟩ => rfl | ⟨1, _⟩ => rfl | ⟨2, _⟩ => rfl)
/-- … against row `d` of `W2`. -/
private theorem ridx26 (s : Fin 512) (b : Fin 64) (d : Fin 1024) (h : Fin 4096) :
    ridx_main_v26 (ix3 s b d) h = ix2 d h :=
  funext fun a => Fin.ext (by match a with | ⟨0, _⟩ => rfl | ⟨1, _⟩ => rfl)
/-- The second bias, broadcast over `s`, is read at `(b, d)`. -/
private theorem idx2829 (s : Fin 512) (b : Fin 64) (d : Fin 1024) :
    idx_main_v28 (idx_main_v29 (ix3 s b d)) = ix2 b d :=
  funext fun a => Fin.ext (by match a with | ⟨0, _⟩ => rfl | ⟨1, _⟩ => rfl)

/-! ## The row before normalisation -/

/-- Row `(s, b)` before normalisation, as a function of the column. -/
private abbrev yRow (x0 : (⟨S64, .i32⟩ : BufTy).Contents (Elt Ideal)) (x1 : (⟨S512x64x1024, .f32⟩ : BufTy).Contents (Elt Ideal))
    (x2 : (⟨S4096x1024, .f32⟩ : BufTy).Contents (Elt Ideal)) (x3 : (⟨S16x4096, .f32⟩ : BufTy).Contents (Elt Ideal))
    (x4 : (⟨S1024x4096, .f32⟩ : BufTy).Contents (Elt Ideal)) (x5 : (⟨S16x1024, .f32⟩ : BufTy).Contents (Elt Ideal))
    (s : Fin 512) (b : Fin 64) : Fin 1024 → EReal :=
  fun d' => Cert.Spec.yRef (fun e => x1 (ix3 s b e)) (fun h e => x2 (ix2 h e))
    (fun h => val_main_v6 (F := Ideal) x0 x3 (ix2 b h)) (fun d'' h => x4 (ix2 d'' h))
    (fun d'' => val_main_v13 (F := Ideal) x0 x5 (ix2 b d'')) d'

/-- Stage 30 at `(s, b, d)`: the residual plus the hidden sum of clamped activations against `W2`, plus the bias. -/
private theorem v30_eq (x0 : (⟨S64, .i32⟩ : BufTy).Contents (Elt Ideal)) (x1 : (⟨S512x64x1024, .f32⟩ : BufTy).Contents (Elt Ideal))
    (x2 : (⟨S4096x1024, .f32⟩ : BufTy).Contents (Elt Ideal)) (x3 : (⟨S16x4096, .f32⟩ : BufTy).Contents (Elt Ideal))
    (x4 : (⟨S1024x4096, .f32⟩ : BufTy).Contents (Elt Ideal)) (x5 : (⟨S16x1024, .f32⟩ : BufTy).Contents (Elt Ideal))
    (s : Fin 512) (b : Fin 64) (d : Fin 1024) :
    val_main_v30 (F := Ideal) x0 x1 x2 x3 x4 x5 (ix3 s b d) = yRow x0 x1 x2 x3 x4 x5 s b d := by
  rw [val_main_v30_apply, val_main_v27_apply, val_main_v26_apply, val_main_v29_apply, val_main_v28_apply, idx2829]
  simp only [val_main_v25_apply, val_main_v24_apply, val_main_v21_apply, val_main_v23_apply, val_main_v22_apply,
    val_main_call0_v0_apply, val_main_call0_cst_apply, lidx26, ridx26, lidx21, ridx21, idx2223,
    Ideal.ofBits_def, Ideal.ofBits_zero_f32]
  rfl

/-! ## The normalisation -/

/-- The row sum of stage 31 at `(s, b)` runs over row `(s, b)`. -/
private theorem idx3132 (s : Fin 512) (b : Fin 64) (k : Fin 1024) :
    idx_main_v31 (idx_main_v32 (ix3 s b (0 : Fin 1))) k = ix3 s b k :=
  funext fun a => Fin.ext (by match a with | ⟨0, _⟩ => rfl | ⟨1, _⟩ => rfl | ⟨2, _⟩ => rfl)
/-- So does the row sum of stage 38. -/
private theorem idx3839 (s : Fin 512) (b : Fin 64) (k : Fin 1024) :
    idx_main_v38 (idx_main_v39 (ix3 s b (0 : Fin 1))) k = ix3 s b k :=
  funext fun a => Fin.ext (by match a with | ⟨0, _⟩ => rfl | ⟨1, _⟩ => rfl | ⟨2, _⟩ => rfl)
/-- The row statistics, of shape `512 × 64 × 1`, are broadcast along the column axis: every column reads entry `(s, b, 0)`. -/
private theorem idx35 (s : Fin 512) (b : Fin 64) (d : Fin 1024) :
    idx_main_v35 (ix3 s b d) = ix3 s b (0 : Fin 1) :=
  funext fun a => Fin.ext (by match a with | ⟨0, _⟩ => rfl | ⟨1, _⟩ => rfl | ⟨2, _⟩ => rfl)
/-- The same for the second broadcast of the mean. -/
private theorem idx42 (s : Fin 512) (b : Fin 64) (d : Fin 1024) :
    idx_main_v42 (ix3 s b d) = ix3 s b (0 : Fin 1) :=
  funext fun a => Fin.ext (by match a with | ⟨0, _⟩ => rfl | ⟨1, _⟩ => rfl | ⟨2, _⟩ => rfl)
/-- The same for the broadcast of the reciprocal square root. -/
private theorem idx47 (s : Fin 512) (b : Fin 64) (d : Fin 1024) :
    idx_main_v47 (ix3 s b d) = ix3 s b (0 : Fin 1) :=
  funext fun a => Fin.ext (by match a with | ⟨0, _⟩ => rfl | ⟨1, _⟩ => rfl | ⟨2, _⟩ => rfl)
/-- The scale, broadcast over `s` and `b`, is read at column `d`. -/
private theorem idx4950 (s : Fin 512) (b : Fin 64) (d : Fin 1024) :
    idx_main_v49 (idx_main_v50 (ix3 s b d)) = ix1 d :=
  funext fun a => Fin.ext (by match a with | ⟨0, _⟩ => rfl)
/-- The shift, broadcast over `s`, is read at `(b, d)`. -/
private theorem idx5253 (s : Fin 512) (b : Fin 64) (d : Fin 1024) :
    idx_main_v52 (idx_main_v53 (ix3 s b d)) = ix2 b d :=
  funext fun a => Fin.ext (by match a with | ⟨0, _⟩ => rfl | ⟨1, _⟩ => rfl)

/-- Stage 34 at `(s, b, 0)` is the mean of the row: its sum from the literal zero, divided by the literal 1024.0. -/
private theorem v34_eq (x0 : (⟨S64, .i32⟩ : BufTy).Contents (Elt Ideal)) (x1 : (⟨S512x64x1024, .f32⟩ : BufTy).Contents (Elt Ideal))
    (x2 : (⟨S4096x1024, .f32⟩ : BufTy).Contents (Elt Ideal)) (x3 : (⟨S16x4096, .f32⟩ : BufTy).Contents (Elt Ideal))
    (x4 : (⟨S1024x4096, .f32⟩ : BufTy).Contents (Elt Ideal)) (x5 : (⟨S16x1024, .f32⟩ : BufTy).Contents (Elt Ideal))
    (s : Fin 512) (b : Fin 64) :
    val_main_v34 (F := Ideal) x0 x1 x2 x3 x4 x5 (ix3 s b (0 : Fin 1)) = Cert.Spec.muRow (yRow x0 x1 x2 x3 x4 x5 s b) := by
  rw [val_main_v34_apply, val_main_v32_apply, val_main_v31_apply, val_main_v33_apply, val_main_cst_5_apply,
    val_main_cst_apply]
  simp only [idx3132, v30_eq, Ideal.hostDivf_def, Ideal.ofBits_def, Ideal.ofBits_zero_f32, zero_add]
  rfl

/-- Stage 41 at `(s, b, 0)` is the mean of the squared deviations of the row from its mean. -/
private theorem v41_eq (x0 : (⟨S64, .i32⟩ : BufTy).Contents (Elt Ideal)) (x1 : (⟨S512x64x1024, .f32⟩ : BufTy).Contents (Elt Ideal))
    (x2 : (⟨S4096x1024, .f32⟩ : BufTy).Contents (Elt Ideal)) (x3 : (⟨S16x4096, .f32⟩ : BufTy).Contents (Elt Ideal))
    (x4 : (⟨S1024x4096, .f32⟩ : BufTy).Contents (Elt Ideal)) (x5 : (⟨S16x1024, .f32⟩ : BufTy).Contents (Elt Ideal))
    (s : Fin 512) (b : Fin 64) :
    val_main_v41 (F := Ideal) x0 x1 x2 x3 x4 x5 (ix3 s b (0 : Fin 1))
      = Ideal.div (∑ d' : Fin 1024, (yRow x0 x1 x2 x3 x4 x5 s b d' - Cert.Spec.muRow (yRow x0 x1 x2 x3 x4 x5 s b))
            * (yRow x0 x1 x2 x3 x4 x5 s b d' - Cert.Spec.muRow (yRow x0 x1 x2 x3 x4 x5 s b)))
          (Ideal.ofBits .f32 0x44800000#32) := by
  rw [val_main_v41_apply, val_main_v39_apply, val_main_v38_apply, val_main_v40_apply, val_main_cst_7_apply,
    val_main_cst_6_apply]
  simp only [val_main_v37_apply, val_main_v36_apply, val_main_v35_apply, idx3839, idx35, v30_eq, v34_eq,
    Ideal.hostDivf_def, Ideal.ofBits_def, Ideal.ofBits_zero_f32, zero_add, Ideal.mulf_def, Ideal.subf_def]

/-- The reference's result at `(s, b, d)`: row `(s, b)` of `x` through the two contractions and the biases gathered for
    batch entry `b`, then normalised, scaled by `ln_w` and shifted by the gathered `ln_b` row. -/
theorem result_apply (x0 : (⟨S64, .i32⟩ : BufTy).Contents (Elt Ideal)) (x1 : (⟨S512x64x1024, .f32⟩ : BufTy).Contents (Elt Ideal))
    (x2 : (⟨S4096x1024, .f32⟩ : BufTy).Contents (Elt Ideal)) (x3 : (⟨S16x4096, .f32⟩ : BufTy).Contents (Elt Ideal))
    (x4 : (⟨S1024x4096, .f32⟩ : BufTy).Contents (Elt Ideal)) (x5 : (⟨S16x1024, .f32⟩ : BufTy).Contents (Elt Ideal))
    (x6 : (⟨S1024, .f32⟩ : BufTy).Contents (Elt Ideal)) (x7 : (⟨S16x1024, .f32⟩ : BufTy).Contents (Elt Ideal))
    (s : Fin 512) (b : Fin 64) (d : Fin 1024) :
    val_main_v54 (F := Ideal) x0 x1 x2 x3 x4 x5 x6 x7 (ix3 s b d)
      = Cert.Spec.lnRow
          (fun d' => Cert.Spec.yRef (fun e => x1 (ix3 s b e)) (fun h e => x2 (ix2 h e))
            (fun h => val_main_v6 (F := Ideal) x0 x3 (ix2 b h)) (fun d'' h => x4 (ix2 d'' h))
            (fun d'' => val_main_v13 (F := Ideal) x0 x5 (ix2 b d'')) d')
          (fun d' => x6 (ix1 d')) (fun d' => val_main_v20 (F := Ideal) x0 x7 (ix2 b d')) d := by
  rw [val_main_v54_apply, val_main_v51_apply, val_main_v48_apply, val_main_v43_apply, val_main_v42_apply,
    val_main_v47_apply, val_main_v46_apply, val_main_v45_apply, val_main_v44_apply, val_main_cst_8_apply,
    val_main_v50_apply, val_main_v49_apply, val_main_v53_apply, val_main_v52_apply,
    idx42, idx47, idx4950, idx5253, v30_eq, v34_eq, v41_eq]
  rfl

end Cert.ReferenceIdeal.RefValue

end
-- ==== Proof.lean ====
/-
  The certificate of the task-specific feed-forward layer: the Pallas kernel against its jnp reference, over the
  extended reals.

  Both programs gather three per-task tables at `task_id` with the same host operations, send every row `x` of the
  input to `y = x + relu (x · W1ᵀ + b1) · W2ᵀ + b2` and normalise `y` along the feature axis with scale `ln_w` and the
  gathered shift.  The kernel tiles the rows sixteen at a time and the 4096 hidden units in four blocks of 1024, whose
  contributions it accumulates from zero in a scratch buffer carried across the four grid points of a row tile, and it
  contracts in bf16 operands — a change of float format is the identity over the extended reals.  So the two results
  differ only in how the sum over the hidden axis is bracketed and in the order of the residual's addition, and
  addition of extended reals is commutative and associative (Spec.lean, `yKer_eq_yRef`); the finiteness precondition
  is not used.

  The kernel's frames and its run are the generated ones; Steps / Pays / SlabsA / SlabsBC read what one grid point
  leaves in the accumulator and the output block, Blocks / Fold / Final turn that into the result array as one
  function `GK` of the arrays, Bridge reads those arrays off the arguments, RefValue reads the reference's run.
-/
import proofs.«159844_j11184094839027_1_alg».proof.Defs
import proofs.«159844_j11184094839027_1_alg».proof.Proof.Gen.Kernel
import proofs.«159844_j11184094839027_1_alg».proof.Proof.Gen.Kernel.Skeleton
import proofs.«159844_j11184094839027_1_alg».proof.Proof.Gen.Kernel.Launch
import proofs.«159844_j11184094839027_1_alg».proof.Proof.Gen.Kernel.Points
import proofs.«159844_j11184094839027_1_alg».proof.Proof.Gen.Kernel.Frame
import proofs.«159844_j11184094839027_1_alg».proof.Proof.Gen.KernelIdeal
import proofs.«159844_j11184094839027_1_alg».proof.Proof.Gen.KernelIdeal.Skeleton
import proofs.«159844_j11184094839027_1_alg».proof.Proof.Gen.KernelIdeal.Launch
import proofs.«159844_j11184094839027_1_alg».proof.Proof.Gen.KernelIdeal.Points
import proofs.«159844_j11184094839027_1_alg».proof.Proof.Gen.KernelIdeal.Frame
import proofs.«159844_j11184094839027_1_alg».proof.Proof.Gen.ReferenceIdeal
import proofs.«159844_j11184094839027_1_alg».proof.Proof.Gen.Pre_finite_inputs
import proofs.«159844_j11184094839027_1_alg».proof.Proof.Gen.KernelIdeal.Value
import proofs.«159844_j11184094839027_1_alg».proof.Proof.Gen.ReferenceIdeal.Run
import proofs.«159844_j11184094839027_1_alg».proof.Proof.Gen.ReferenceIdeal.Read
import proofs.«159844_j11184094839027_1_alg».proof.Proof.Final
import proofs.«159844_j11184094839027_1_alg».proof.Proof.Bridge
import proofs.«159844_j11184094839027_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result array is the reference's last stage of the same arguments -/

section Result

open Cert.KernelIdeal Cert.KernelIdeal.Gen Cert.KernelIdeal.Blocks Cert.KernelIdeal.Bridge Cert.KernelIdeal.Final

variable (m : (ℓ : Loc Cert.KernelIdeal.nD Cert.KernelIdeal.τ Cert.KernelIdeal.sig) → Buf (Elt Ideal) ℓ)

/-- Entry by entry the kernel's `GK` is the reference's stage 54 of the kernel's own arguments: the blocked
    accumulation is the single sum, the transposed weights read back are the weights, and the gathered arrays are the
    reference's own gathers. -/
theorem result_eq (c : Dev Cert.KernelIdeal.nD) :
    GK m c = Cert.ReferenceIdeal.Read.val_main_v54 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  funext i
  obtain ⟨s, b, d, rfl⟩ : ∃ (s : Fin 512) (b : Fin 64) (d : Fin 1024), i = ix3 s b d := ⟨i 0, i 1, i 2, eq_ix3 i⟩
  rw [Cert.ReferenceIdeal.RefValue.result_apply]
  show GKc m c s b d = _
  unfold GKc
  have a1 : (fun e => xarr m c (ix3 s b e)) = fun e => ((m ((c : Thread Cert.KernelIdeal.nD Cert.KernelIdeal.τ).loc Cert.KernelIdeal.main_arg1)) : Vec Ideal S512x64x1024 .f32) (ix3 s b e) :=
    funext fun e => congrFun (xarr_eq m c) _
  have a2 : W1f m c = fun h e => ((m ((c : Thread Cert.KernelIdeal.nD Cert.KernelIdeal.τ).loc Cert.KernelIdeal.main_arg2)) : Vec Ideal S4096x1024 .f32) (ix2 h e) :=
    funext fun h => funext fun e => w1tarr_apply m c e h
  have a3 : b1row m c b = fun h => Cert.ReferenceIdeal.Read.val_main_v6 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (ix2 b h) :=
    funext fun h => congrFun (b1garr_eq m c) _
  have a4 : W2f m c = fun d'' h => ((m ((c : Thread Cert.KernelIdeal.nD Cert.KernelIdeal.τ).loc Cert.KernelIdeal.main_arg4)) : Vec Ideal S1024x4096 .f32) (ix2 d'' h) :=
    funext fun d'' => funext fun h => w2tarr_apply m c h d''
  have a5 : (fun d'' => b2garr m c (ix2 b d'')) = fun d'' => Cert.ReferenceIdeal.Read.val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg5)) (ix2 b d'') :=
    funext fun d'' => congrFun (b2garr_eq m c) _
  have a6 : (fun d' => lnwarr m c (ix1 d')) = fun d' => ((m ((c : Thread Cert.KernelIdeal.nD Cert.KernelIdeal.τ).loc Cert.KernelIdeal.main_arg6)) : Vec Ideal S1024 .f32) (ix1 d') :=
    funext fun d' => congrFun (lnwarr_eq m c) _
  have a7 : (fun d' => lnbgarr m c (ix2 b d')) = fun d' => Cert.ReferenceIdeal.Read.val_main_v20 (F := Ideal) (m ((c : Thread Cert.KernelIdeal.nD Cert.KernelIdeal.τ).loc Cert.KernelIdeal.main_arg0)) (m ((c : Thread Cert.KernelIdeal.nD Cert.KernelIdeal.τ).loc Cert.KernelIdeal.main_arg7)) (ix2 b d') :=
    funext fun d' => congrFun (lnbgarr_eq m c) _
  rw [a1, a2, a3, a4, a5, a6, a7]
  refine congrArg (fun y => Cert.Spec.lnRow y _ _ d) (funext fun d' => ?_)
  exact Cert.Spec.yKer_eq_yRef _ _ _ _ _ d'

end Result

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the same result array: the kernel's at `GK` of
    its arguments, the reference's at its last stage of its own, which agree with the kernel's. -/
theorem algebraic : Cert.algebraic_KernelIdeal_ReferenceIdeal := by
  intro m ρ m' ρ' _ hagree
  refine ⟨fun c => Cert.KernelIdeal.Final.GK m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
